-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S2000000 : Shape := ⟨1, ![2000000]⟩
abbrev S500000x3 : Shape := ⟨2, ![500000, 3]⟩
abbrev S1000000x3 : Shape := ⟨2, ![1000000, 3]⟩
abbrev S_ : Shape := ⟨0, ![]⟩
abbrev S2000000x1 : Shape := ⟨2, ![2000000, 1]⟩
abbrev S2000000x3x1 : Shape := ⟨3, ![2000000, 3, 1]⟩
abbrev S2000000x3x3 : Shape := ⟨3, ![2000000, 3, 3]⟩
abbrev S2000000x1x3 : Shape := ⟨3, ![2000000, 1, 3]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S500000x3 : S_.BroadcastsInDim S500000x3 (![] : Fin 0 → Fin S500000x3.rank)
  reducesTo_S500000x3_S_d0_1 : S500000x3.ReducesTo [0, 1] S_
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x3_S2000000x3x1_0_1 : S2000000x3.BroadcastsInDim S2000000x3x1 (![0, 1] : Fin 2 → Fin S2000000x3x1.rank)
  slices_S2000000x3x3_S2000000x1x3_0_0_0 : S2000000x3x3.Slices ![0, 0, 0] S2000000x1x3
  shapeCasts_S2000000x1x3_S2000000x3 : S2000000x1x3.ShapeCasts S2000000x3
  slices_S2000000x3x3_S2000000x1x3_0_1_0 : S2000000x3x3.Slices ![0, 1, 0] S2000000x1x3
  slices_S2000000x3x3_S2000000x1x3_0_2_0 : S2000000x3x3.Slices ![0, 2, 0] S2000000x1x3
  reducesTo_S2000000x3_S2000000_d1 : S2000000x3.ReducesTo [1] S2000000
  bcast_S2000000x1_S2000000x3_0_1 : S2000000x1.BroadcastsInDim S2000000x3 (![0, 1] : Fin 2 → Fin S2000000x3.rank)
  reducesTo_S2000000_S_d0 : S2000000.ReducesTo [0] S_
  gather_S1000000x3_S2000000x1_S2000000x3_1_0_n_n_0_1_13_wf : GatherDims.WF S1000000x3 S2000000x1 S2000000x3 [1] [0] [] [0] [] 1 ![1, 3]
  gather_S500000x3_S2000000x3x1_S2000000x3x3_2_0_n_n_0_2_13_wf : GatherDims.WF S500000x3 S2000000x3x1 S2000000x3x3 [2] [0] [] [0] [] 2 ![1, 3]

variable [Facts]

def gather_S1000000x3_S2000000x1_S2000000x3_1_0_n_n_0_1_13 : GatherDims S1000000x3 S2000000x1 S2000000x3 where
  offsetDims := [1]
  collapsedSliceDims := [0]
  operandBatchingDims := []
  startIndicesBatchingDims := []
  startIndexMap := [0]
  indexVectorDim := 1
  sliceSizes := ![1, 3]
  wf := gather_S1000000x3_S2000000x1_S2000000x3_1_0_n_n_0_1_13_wf
def gather_S500000x3_S2000000x3x1_S2000000x3x3_2_0_n_n_0_2_13 : GatherDims S500000x3 S2000000x3x1 S2000000x3x3 where
  offsetDims := [2]
  collapsedSliceDims := [0]
  operandBatchingDims := []
  startIndicesBatchingDims := []
  startIndexMap := [0]
  indexVectorDim := 2
  sliceSizes := ![1, 3]
  wf := gather_S500000x3_S2000000x3x1_S2000000x3x3_2_0_n_n_0_2_13_wf
def fn_part5 {F : FTy → Type} [FloatOps F] (main_v18 : IVec S_ 1) (main_v96 : FVec F S2000000x3 .f32) : IVec S_ 1 :=
  let main_v97 : FVec F S2000000x3 .f32 := mulf main_v96 main_v96
  let main_cst_21 : FVec F S_ .f32 := constant S_ .f32 0x00000000#32
  let main_v98 : FVec F S2000000 .f32 := (fun x v => Host.reduceAdd x v reducesTo_S2000000x3_S2000000_d1 h_S_) main_v97 main_cst_21
  let main_cst_22 : FVec F S_ .f32 := constant S_ .f32 0x00000000#32
  let main_v99 : FVec F S2000000 .f32 := broadcastInDim S2000000 ![] bcast_S_S2000000 main_cst_22
  let main_v100 : IVec S2000000 1 := cmpf .ogt main_v98 main_v99
  let main_c_23 : IVec S_ 1 := constantI S_ 1 1#1
  let main_v101 : IVec S_ 1 := (fun x v => Host.reduce IntOp.andi x v reducesTo_S2000000_S_d0 h_S_) main_v100 main_c_23
  let main_v102 : IVec S_ 1 := andi main_v18 main_v101
  main_v102

def fn_part4 {F : FTy → Type} [FloatOps F] (main_arg1 : FVec F S2000000x3 .f32) (main_v18 : IVec S_ 1) (main_v58 : FVec F S2000000 .f32) (main_v62 : FVec F S2000000 .f32) (main_v72 : FVec F S2000000x3x3 .f32) (main_v73 : FVec F S2000000x1 .f32) (main_v75 : FVec F S2000000x3 .f32) : IVec S_ 1 :=
  let main_v76 : FVec F S2000000x3 .f32 := broadcastInDim S2000000x3 ![0, 1] bcast_S2000000x1_S2000000x3_0_1 main_v73
  let main_v77 : FVec F S2000000x3 .f32 := mulf main_v76 main_v75
  let main_v78 : FVec F S2000000x1 .f32 := broadcastInDim S2000000x1 ![0] bcast_S2000000_S2000000x1_0 main_v58
  let main_v79 : FVec F S2000000x1x3 .f32 := (extractStridedSlice S2000000x1x3 ![0, 1, 0] · slices_S2000000x3x3_S2000000x1x3_0_1_0) main_v72
  let main_v80 : FVec F S2000000x3 .f32 := shapeCast S2000000x3 main_v79 shapeCasts_S2000000x1x3_S2000000x3
  let main_v81 : FVec F S2000000x3 .f32 := broadcastInDim S2000000x3 ![0, 1] bcast_S2000000x1_S2000000x3_0_1 main_v78
  let main_v82 : FVec F S2000000x3 .f32 := mulf main_v81 main_v80
  let main_v83 : FVec F S2000000x3 .f32 := addf main_v77 main_v82
  let main_v84 : FVec F S2000000x1 .f32 := broadcastInDim S2000000x1 ![0] bcast_S2000000_S2000000x1_0 main_v62
  let main_v85 : FVec F S2000000x1x3 .f32 := (extractStridedSlice S2000000x1x3 ![0, 2, 0] · slices_S2000000x3x3_S2000000x1x3_0_2_0) main_v72
  let main_v86 : FVec F S2000000x3 .f32 := shapeCast S2000000x3 main_v85 shapeCasts_S2000000x1x3_S2000000x3
  let main_v87 : FVec F S2000000x3 .f32 := broadcastInDim S2000000x3 ![0, 1] bcast_S2000000x1_S2000000x3_0_1 main_v84
  let main_v88 : FVec F S2000000x3 .f32 := mulf main_v87 main_v86
  let main_v89 : FVec F S2000000x3 .f32 := addf main_v83 main_v88
  let main_cst_18 : FVec F S_ .f32 := constant S_ .f32 0x40000000#32
  let main_v90 : FVec F S2000000x3 .f32 := broadcastInDim S2000000x3 ![] bcast_S_S2000000x3 main_cst_18
  let main_v91 : FVec F S2000000x3 .f32 := mulf main_v89 main_v90
  let main_cst_19 : FVec F S_ .f32 := constant S_ .f32 0x3F800000#32
  let main_v92 : FVec F S2000000x3 .f32 := broadcastInDim S2000000x3 ![] bcast_S_S2000000x3 main_cst_19
  let main_v93 : FVec F S2000000x3 .f32 := subf main_v91 main_v92
  let main_cst_20 : FVec F S_ .f32 := constant S_ .f32 0x3E800000#32
  let main_v94 : FVec F S2000000x3 .f32 := broadcastInDim S2000000x3 ![] bcast_S_S2000000x3 main_cst_20
  let main_v95 : FVec F S2000000x3 .f32 := mulf main_v93 main_v94
  let main_v96 : FVec F S2000000x3 .f32 := addf main_arg1 main_v95
  fn_part5 (F := F) main_v18 main_v96

def fn_part3 {F : FTy → Type} [FloatOps F] (main_arg1 : FVec F S2000000x3 .f32) (main_arg5 : FVec F S500000x3 .f32) (main_v18 : IVec S_ 1) (main_v25 : IVec S2000000x3 32) (main_v43 : FVec F S2000000 .f32) (main_v45 : FVec F S2000000 .f32) (main_v47 : FVec F S2000000 .f32) (main_v49 : FVec F S2000000 .f32) (main_v51 : FVec F S2000000 .f32) (main_v54 : FVec F S2000000 .f32) : IVec S_ 1 :=
  let main_v55 : FVec F S2000000 .f32 := mulf main_v47 main_v49
  let main_v56 : FVec F S2000000 .f32 := mulf main_v45 main_v51
  let main_v57 : FVec F S2000000 .f32 := subf main_v55 main_v56
  let main_v58 : FVec F S2000000 .f32 := Host.divf main_v57 main_v54
  let main_v59 : FVec F S2000000 .f32 := mulf main_v43 main_v51
  let main_v60 : FVec F S2000000 .f32 := mulf main_v45 main_v49
  let main_v61 : FVec F S2000000 .f32 := subf main_v59 main_v60
  let main_v62 : FVec F S2000000 .f32 := Host.divf main_v61 main_v54
  let main_cst_15 : FVec F S_ .f32 := constant S_ .f32 0x3F800000#32
  let main_v63 : FVec F S2000000 .f32 := broadcastInDim S2000000 ![] bcast_S_S2000000 main_cst_15
  let main_v64 : FVec F S2000000 .f32 := subf main_v63 main_v58
  let main_v65 : FVec F S2000000 .f32 := subf main_v64 main_v62
  let main_c_16 : IVec S_ 32 := constantI S_ 32 0#32
  let main_v66 : IVec S2000000x3 32 := broadcastInDim S2000000x3 ![] bcast_S_S2000000x3 main_c_16
  let main_v67 : IVec S2000000x3 1 := cmpi .slt main_v25 main_v66
  let main_c_17 : IVec S_ 32 := constantI S_ 32 500000#32
  let main_v68 : IVec S2000000x3 32 := broadcastInDim S2000000x3 ![] bcast_S_S2000000x3 main_c_17
  let main_v69 : IVec S2000000x3 32 := addi main_v25 main_v68
  let main_v70 : IVec S2000000x3 32 := select main_v67 main_v69 main_v25
  let main_v71 : IVec S2000000x3x1 32 := broadcastInDim S2000000x3x1 ![0, 1] bcast_S2000000x3_S2000000x3x1_0_1 main_v70
  let main_v72 : FVec F S2000000x3x3 .f32 := (fun x i => Host.gather gather_S500000x3_S2000000x3x1_S2000000x3x3_2_0_n_n_0_2_13 x i) main_arg5 main_v71
  let main_v73 : FVec F S2000000x1 .f32 := broadcastInDim S2000000x1 ![0] bcast_S2000000_S2000000x1_0 main_v65
  let main_v74 : FVec F S2000000x1x3 .f32 := (extractStridedSlice S2000000x1x3 ![0, 0, 0] · slices_S2000000x3x3_S2000000x1x3_0_0_0) main_v72
  let main_v75 : FVec F S2000000x3 .f32 := shapeCast S2000000x3 main_v74 shapeCasts_S2000000x1x3_S2000000x3
  fn_part4 (F := F) main_arg1 main_v18 main_v58 main_v62 main_v72 main_v73 main_v75

def fn_part2 {F : FTy → Type} [FloatOps F] (main_arg0 : FVec F S2000000x3 .f32) (main_arg1 : FVec F S2000000x3 .f32) (main_arg5 : FVec F S500000x3 .f32) (main_v18 : IVec S_ 1) (main_v25 : IVec S2000000x3 32) (main_v32 : FVec F S2000000x3x3 .f32) (main_v34 : FVec F S2000000x3 .f32) (main_v35 : FVec F S2000000x1x3 .f32) : IVec S_ 1 :=
  let main_v36 : FVec F S2000000x3 .f32 := shapeCast S2000000x3 main_v35 shapeCasts_S2000000x1x3_S2000000x3
  let main_v37 : FVec F S2000000x1x3 .f32 := (extractStridedSlice S2000000x1x3 ![0, 2, 0] · slices_S2000000x3x3_S2000000x1x3_0_2_0) main_v32
  let main_v38 : FVec F S2000000x3 .f32 := shapeCast S2000000x3 main_v37 shapeCasts_S2000000x1x3_S2000000x3
  let main_v39 : FVec F S2000000x3 .f32 := subf main_v36 main_v34
  let main_v40 : FVec F S2000000x3 .f32 := subf main_v38 main_v34
  let main_v41 : FVec F S2000000x3 .f32 := subf main_arg0 main_v34
  let main_v42 : FVec F S2000000x3 .f32 := mulf main_v39 main_v39
  let main_cst_10 : FVec F S_ .f32 := constant S_ .f32 0x00000000#32
  let main_v43 : FVec F S2000000 .f32 := (fun x v => Host.reduceAdd x v reducesTo_S2000000x3_S2000000_d1 h_S_) main_v42 main_cst_10
  let main_v44 : FVec F S2000000x3 .f32 := mulf main_v39 main_v40
  let main_cst_11 : FVec F S_ .f32 := constant S_ .f32 0x00000000#32
  let main_v45 : FVec F S2000000 .f32 := (fun x v => Host.reduceAdd x v reducesTo_S2000000x3_S2000000_d1 h_S_) main_v44 main_cst_11
  let main_v46 : FVec F S2000000x3 .f32 := mulf main_v40 main_v40
  let main_cst_12 : FVec F S_ .f32 := constant S_ .f32 0x00000000#32
  let main_v47 : FVec F S2000000 .f32 := (fun x v => Host.reduceAdd x v reducesTo_S2000000x3_S2000000_d1 h_S_) main_v46 main_cst_12
  let main_v48 : FVec F S2000000x3 .f32 := mulf main_v41 main_v39
  let main_cst_13 : FVec F S_ .f32 := constant S_ .f32 0x00000000#32
  let main_v49 : FVec F S2000000 .f32 := (fun x v => Host.reduceAdd x v reducesTo_S2000000x3_S2000000_d1 h_S_) main_v48 main_cst_13
  let main_v50 : FVec F S2000000x3 .f32 := mulf main_v41 main_v40
  let main_cst_14 : FVec F S_ .f32 := constant S_ .f32 0x00000000#32
  let main_v51 : FVec F S2000000 .f32 := (fun x v => Host.reduceAdd x v reducesTo_S2000000x3_S2000000_d1 h_S_) main_v50 main_cst_14
  let main_v52 : FVec F S2000000 .f32 := mulf main_v43 main_v47
  let main_v53 : FVec F S2000000 .f32 := mulf main_v45 main_v45
  let main_v54 : FVec F S2000000 .f32 := subf main_v52 main_v53
  fn_part3 (F := F) main_arg1 main_arg5 main_v18 main_v25 main_v43 main_v45 main_v47 main_v49 main_v51 main_v54

def fn_part1 {F : FTy → Type} [FloatOps F] (main_arg0 : FVec F S2000000x3 .f32) (main_arg1 : FVec F S2000000x3 .f32) (main_arg2 : IVec S2000000 32) (main_arg3 : FVec F S500000x3 .f32) (main_arg4 : IVec S1000000x3 32) (main_arg5 : FVec F S500000x3 .f32) (main_v13 : IVec S_ 1) (main_v16 : IVec S500000x3 1) : IVec S_ 1 :=
  let main_c_5 : IVec S_ 1 := constantI S_ 1 1#1
  let main_v17 : IVec S_ 1 := (fun x v => Host.reduce IntOp.andi x v reducesTo_S500000x3_S_d0_1 h_S_) main_v16 main_c_5
  let main_v18 : IVec S_ 1 := andi main_v13 main_v17
  let main_c_6 : IVec S_ 32 := constantI S_ 32 0#32
  let main_v19 : IVec S2000000 32 := broadcastInDim S2000000 ![] bcast_S_S2000000 main_c_6
  let main_v20 : IVec S2000000 1 := cmpi .slt main_arg2 main_v19
  let main_c_7 : IVec S_ 32 := constantI S_ 32 1000000#32
  let main_v21 : IVec S2000000 32 := broadcastInDim S2000000 ![] bcast_S_S2000000 main_c_7
  let main_v22 : IVec S2000000 32 := addi main_arg2 main_v21
  let main_v23 : IVec S2000000 32 := select main_v20 main_v22 main_arg2
  let main_v24 : IVec S2000000x1 32 := broadcastInDim S2000000x1 ![0] bcast_S2000000_S2000000x1_0 main_v23
  let main_v25 : IVec S2000000x3 32 := (fun x i => Host.gather gather_S1000000x3_S2000000x1_S2000000x3_1_0_n_n_0_1_13 x i) main_arg4 main_v24
  let main_c_8 : IVec S_ 32 := constantI S_ 32 0#32
  let main_v26 : IVec S2000000x3 32 := broadcastInDim S2000000x3 ![] bcast_S_S2000000x3 main_c_8
  let main_v27 : IVec S2000000x3 1 := cmpi .slt main_v25 main_v26
  let main_c_9 : IVec S_ 32 := constantI S_ 32 500000#32
  let main_v28 : IVec S2000000x3 32 := broadcastInDim S2000000x3 ![] bcast_S_S2000000x3 main_c_9
  let main_v29 : IVec S2000000x3 32 := addi main_v25 main_v28
  let main_v30 : IVec S2000000x3 32 := select main_v27 main_v29 main_v25
  let main_v31 : IVec S2000000x3x1 32 := broadcastInDim S2000000x3x1 ![0, 1] bcast_S2000000x3_S2000000x3x1_0_1 main_v30
  let main_v32 : FVec F S2000000x3x3 .f32 := (fun x i => Host.gather gather_S500000x3_S2000000x3x1_S2000000x3x3_2_0_n_n_0_2_13 x i) main_arg3 main_v31
  let main_v33 : FVec F S2000000x1x3 .f32 := (extractStridedSlice S2000000x1x3 ![0, 0, 0] · slices_S2000000x3x3_S2000000x1x3_0_0_0) main_v32
  let main_v34 : FVec F S2000000x3 .f32 := shapeCast S2000000x3 main_v33 shapeCasts_S2000000x1x3_S2000000x3
  let main_v35 : FVec F S2000000x1x3 .f32 := (extractStridedSlice S2000000x1x3 ![0, 1, 0] · slices_S2000000x3x3_S2000000x1x3_0_1_0) main_v32
  fn_part2 (F := F) main_arg0 main_arg1 main_arg5 main_v18 main_v25 main_v32 main_v34 main_v35

def fn {F : FTy → Type} [FloatOps F] (main_arg0 : FVec F S2000000x3 .f32) (main_arg1 : FVec F S2000000x3 .f32) (main_arg2 : IVec S2000000 32) (main_arg3 : FVec F S500000x3 .f32) (main_arg4 : IVec S1000000x3 32) (main_arg5 : FVec F S500000x3 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S2000000x3 .f32 := Host.absf main_arg1
  let main_cst_0 : FVec F S_ .f32 := constant S_ .f32 0x7F800000#32
  let main_v5 : FVec F S2000000x3 .f32 := broadcastInDim S2000000x3 ![] bcast_S_S2000000x3 main_cst_0
  let main_v6 : IVec S2000000x3 1 := cmpf .olt main_v4 main_v5
  let main_c_1 : IVec S_ 1 := constantI S_ 1 1#1
  let main_v7 : IVec S_ 1 := (fun x v => Host.reduce IntOp.andi x v reducesTo_S2000000x3_S_d0_1 h_S_) main_v6 main_c_1
  let main_v8 : IVec S_ 1 := andi main_v3 main_v7
  let main_v9 : FVec F S500000x3 .f32 := Host.absf main_arg3
  let main_cst_2 : FVec F S_ .f32 := constant S_ .f32 0x7F800000#32
  let main_v10 : FVec F S500000x3 .f32 := broadcastInDim S500000x3 ![] bcast_S_S500000x3 main_cst_2
  let main_v11 : IVec S500000x3 1 := cmpf .olt main_v9 main_v10
  let main_c_3 : IVec S_ 1 := constantI S_ 1 1#1
  let main_v12 : IVec S_ 1 := (fun x v => Host.reduce IntOp.andi x v reducesTo_S500000x3_S_d0_1 h_S_) main_v11 main_c_3
  let main_v13 : IVec S_ 1 := andi main_v8 main_v12
  let main_v14 : FVec F S500000x3 .f32 := Host.absf main_arg5
  let main_cst_4 : FVec F S_ .f32 := constant S_ .f32 0x7F800000#32
  let main_v15 : FVec F S500000x3 .f32 := broadcastInDim S500000x3 ![] bcast_S_S500000x3 main_cst_4
  let main_v16 : IVec S500000x3 1 := cmpf .olt main_v14 main_v15
  fn_part1 (F := F) main_arg0 main_arg1 main_arg2 main_arg3 main_arg4 main_arg5 main_v13 main_v16
-- ==== Kernel.lean ====
abbrev S2000000x3 : Shape := ⟨2, ![2000000, 3]⟩
abbrev S2000000 : Shape := ⟨1, ![2000000]⟩
abbrev S500000x3 : Shape := ⟨2, ![500000, 3]⟩
abbrev S1000000x3 : Shape := ⟨2, ![1000000, 3]⟩
abbrev S500000x6 : Shape := ⟨2, ![500000, 6]⟩
abbrev S1000000x1 : Shape := ⟨2, ![1000000, 1]⟩
abbrev S1000000 : Shape := ⟨1, ![1000000]⟩
abbrev S_ : Shape := ⟨0, ![]⟩
abbrev S1000000x6 : Shape := ⟨2, ![1000000, 6]⟩
abbrev S1000000x18 : Shape := ⟨2, ![1000000, 18]⟩
abbrev S2000000x1 : Shape := ⟨2, ![2000000, 1]⟩
abbrev S2000000x18 : Shape := ⟨2, ![2000000, 18]⟩
abbrev S18x2000000 : Shape := ⟨2, ![18, 2000000]⟩
abbrev S3x2000000 : Shape := ⟨2, ![3, 2000000]⟩
abbrev S18x2031616 : Shape := ⟨2, ![18, 2031616]⟩
abbrev S3x2031616 : Shape := ⟨2, ![3, 2031616]⟩
abbrev S18x32768 : Shape := ⟨2, ![18, 32768]⟩
abbrev S3x32768 : Shape := ⟨2, ![3, 32768]⟩
abbrev S32768 : Shape := ⟨1, ![32768]⟩
abbrev S1x32768 : Shape := ⟨2, ![1, 32768]⟩

abbrev nBuf : Space → Nat
  | .hbm => 65
  | .vmem => 8
  | .smem => 0
  | _ => 0

abbrev bufTy : (tb : Table) → Fin (tcTables nBuf tb) → BufTy
  | .hbm, ⟨0, _⟩ => ⟨S2000000x3, .f32⟩
  | .hbm, ⟨1, _⟩ => ⟨S2000000x3, .f32⟩
  | .hbm, ⟨2, _⟩ => ⟨S2000000, .i32⟩
  | .hbm, ⟨3, _⟩ => ⟨S500000x3, .f32⟩
  | .hbm, ⟨4, _⟩ => ⟨S1000000x3, .i32⟩
  | .hbm, ⟨5, _⟩ => ⟨S500000x3, .f32⟩
  | .hbm, ⟨6, _⟩ => ⟨S500000x6, .f32⟩
  | .hbm, ⟨7, _⟩ => ⟨S1000000x1, .i32⟩
  | .hbm, ⟨8, _⟩ => ⟨S1000000, .i32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x6, .f32⟩
  | .hbm, ⟨18, _⟩ => ⟨S1000000x1, .i32⟩
  | .hbm, ⟨19, _⟩ => ⟨S1000000, .i32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x6, .f32⟩
  | .hbm, ⟨29, _⟩ => ⟨S1000000x1, .i32⟩
  | .hbm, ⟨30, _⟩ => ⟨S1000000, .i32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1000000x6, .f32⟩
  | .hbm, ⟨40, _⟩ => ⟨S1000000x18, .f32⟩
  | .hbm, ⟨41, _⟩ => ⟨S_, .i32⟩
  | .hbm, ⟨42, _⟩ => ⟨S2000000, .i32⟩
  | .hbm, ⟨43, _⟩ => ⟨S2000000, .i1⟩
  | .hbm, ⟨44, _⟩ => ⟨S_, .i32⟩
  | .hbm, ⟨45, _⟩ => ⟨S2000000, .i32⟩
  | .hbm, ⟨46, _⟩ => ⟨S2000000, .i32⟩
  | .hbm, ⟨47, _⟩ => ⟨S2000000, .i32⟩
  | .hbm, ⟨48, _⟩ => ⟨S2000000x1, .i32⟩
  | .hbm, ⟨49, _⟩ => ⟨S2000000x18, .f32⟩
  | .hbm, ⟨50, _⟩ => ⟨S18x2000000, .f32⟩
  | .hbm, ⟨51, _⟩ => ⟨S3x2000000, .f32⟩
  | .hbm, ⟨52, _⟩ => ⟨S3x2000000, .f32⟩
  | .hbm, ⟨53, _⟩ => ⟨S_, .i32⟩
  | .hbm, ⟨54, _⟩ => ⟨S_, .f32⟩
  | .hbm, ⟨55, _⟩ => ⟨S18x2031616, .f32⟩
  | .hbm, ⟨56, _⟩ => ⟨S_, .i32⟩
  | .hbm, ⟨57, _⟩ => ⟨S_, .f32⟩
  | .hbm, ⟨58, _⟩ => ⟨S3x2031616, .f32⟩
  | .hbm, ⟨59, _⟩ => ⟨S_, .i32⟩
  | .hbm, ⟨60, _⟩ => ⟨S_, .f32⟩
  | .hbm, ⟨61, _⟩ => ⟨S3x2031616, .f32⟩
  | .hbm, ⟨62, _⟩ => ⟨S3x2031616, .f32⟩
  | .hbm, ⟨63, _⟩ => ⟨S3x2000000, .f32⟩
  | .hbm, ⟨64, _⟩ => ⟨S2000000x3, .f32⟩
  | .local _ .vmem, ⟨0, _⟩ => ⟨S18x32768, .f32⟩
  | .local _ .vmem, ⟨1, _⟩ => ⟨S18x32768, .f32⟩
  | .local _ .vmem, ⟨2, _⟩ => ⟨S3x32768, .f32⟩
  | .local _ .vmem, ⟨3, _⟩ => ⟨S3x32768, .f32⟩
  | .local _ .vmem, ⟨4, _⟩ => ⟨S3x32768, .f32⟩
  | .local _ .vmem, ⟨5, _⟩ => ⟨S3x32768, .f32⟩
  | .local _ .vmem, ⟨6, _⟩ => ⟨S3x32768, .f32⟩
  | .local _ .vmem, ⟨7, _⟩ => ⟨S3x32768, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_call0_v0 : Ref sig .tc := ⟨.hbm, 54, rfl⟩
abbrev main_v39 : Ref sig .tc := ⟨.hbm, 55, rfl⟩
abbrev main_c_8 : Ref sig .tc := ⟨.hbm, 56, rfl⟩
abbrev main_call1_v0 : Ref sig .tc := ⟨.hbm, 57, rfl⟩
abbrev main_v40 : Ref sig .tc := ⟨.hbm, 58, rfl⟩
abbrev main_c_9 : Ref sig .tc := ⟨.hbm, 59, rfl⟩
abbrev main_call2_v0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S18x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  concatenates_S500000x3_S500000x3_S500000x6_d1 : Shape.Concatenates [S500000x3, S500000x3] S500000x6 1
  slices_S1000000x3_S1000000x1_0_0 : S1000000x3.Slices ![0, 0] S1000000x1
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S1000000x3_S1000000x1_0_1 : S1000000x3.Slices ![0, 1] S1000000x1
  slices_S1000000x3_S1000000x1_0_2 : S1000000x3.Slices ![0, 2] S1000000x1
  concatenates_S1000000x6_S1000000x6_S1000000x6_S1000000x18_d1 : Shape.Concatenates [S1000000x6, S1000000x6, S1000000x6] S1000000x18 1
  bcast_S_S2000000 : S_.BroadcastsInDim S2000000 (![] : Fin 0 → Fin S2000000.rank)
  bcast_S2000000_S2000000x1_0 : S2000000.BroadcastsInDim S2000000x1 (![0] : Fin 1 → Fin S2000000x1.rank)
  transposes_S2000000x18_S18x2000000_1_0 : S2000000x18.Transposes [1, 0] S18x2000000
  transposes_S2000000x3_S3x2000000_1_0 : S2000000x3.Transposes [1, 0] S3x2000000
  pads_S18x2000000_S18x2031616_000_0316160 : S18x2000000.Pads (![0, 0] : Fin 2 → Nat) ![0, 31616] ![0, 0] S18x2031616
  h_S_ : 0 < S_.numel
  pads_S3x2000000_S3x2031616_000_0316160 : S3x2000000.Pads (![0, 0] : Fin 2 → Nat) ![0, 31616] ![0, 0] S3x2031616
  inb_S18x32768_S18x32768_0_0 : ∀ a, (![0, 0] : Fin 2 → Nat) a + S18x32768.size a ≤ S18x32768.size a
  h_S18x32768 : 0 < S18x32768.numel
  shapeCasts_S18x32768_S18x32768 : S18x32768.ShapeCasts S18x32768
  slices_S18x32768_o0_0_S3x32768 : S18x32768.Slices ![0, 0] S3x32768
  slices_S18x32768_o3_0_S3x32768 : S18x32768.Slices ![3, 0] S3x32768
  slices_S18x32768_o6_0_S3x32768 : S18x32768.Slices ![6, 0] S3x32768
  slices_S18x32768_o9_0_S3x32768 : S18x32768.Slices ![9, 0] S3x32768
  slices_S18x32768_o12_0_S3x32768 : S18x32768.Slices ![12, 0] S3x32768
  slices_S18x32768_o15_0_S3x32768 : S18x32768.Slices ![15, 0] S3x32768
  inb_S3x32768_S3x32768_0_0 : ∀ a, (![0, 0] : Fin 2 → Nat) a + S3x32768.size a ≤ S3x32768.size a
  h_S3x32768 : 0 < S3x32768.numel
  shapeCasts_S3x32768_S3x32768 : S3x32768.ShapeCasts S3x32768
  reduces_S3x32768_S32768 : S3x32768.Reduces [0] S32768
  shapeCasts_S32768_S1x32768 : S32768.ShapeCasts S1x32768
  broadcasts_S1x32768_S3x32768 : S1x32768.Broadcasts S3x32768
  slices_S3x2031616_S3x2000000_0_0 : S3x2031616.Slices ![0, 0] S3x2000000
  transposes_S3x2000000_S2000000x3_1_0 : S3x2000000.Transposes [1, 0] S2000000x3
  gather_S500000x6_S1000000x1_S1000000x6_1_0_n_n_0_1_16_wf : GatherDims.WF S500000x6 S1000000x1 S1000000x6 [1] [0] [] [0] [] 1 ![1, 6]
  gather_S1000000x18_S2000000x1_S2000000x18_1_0_n_n_0_1_118_wf : GatherDims.WF S1000000x18 S2000000x1 S2000000x18 [1] [0] [] [0] [] 1 ![1, 18]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S18x32768.size a ≤ S18x2031616.size a
  hwx0_0 : ∀ i : grid0.Coords, EltTy.bits .f32 = 32 ∨ (Rect.block (s := S18x2031616) S18x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x32768.size a ≤ S3x2031616.size a
  hwx0_1 : ∀ i : grid0.Coords, EltTy.bits .f32 = 32 ∨ (Rect.block (s := S3x2031616) S3x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x32768.size a ≤ S3x2031616.size a
  hwx0_2 : ∀ i : grid0.Coords, EltTy.bits .f32 = 32 ∨ (Rect.block (s := S3x2031616) S3x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x32768.size a ≤ S3x2031616.size a
  hwx0_3 : ∀ i : grid0.Coords, EltTy.bits .f32 = 32 ∨ (Rect.block (s := S3x2031616) S3x32768.size (cc0_transform_3 i) (hinb0_3 i)).WholeWords (EltTy.packing .f32)

variable [Facts₀]

def gather_S500000x6_S1000000x1_S1000000x6_1_0_n_n_0_1_16 : GatherDims S500000x6 S1000000x1 S1000000x6 where
  offsetDims := [1]
  collapsedSliceDims := [0]
  operandBatchingDims := []
  startIndicesBatchingDims := []
  startIndexMap := [0]
  indexVectorDim := 1
  sliceSizes := ![1, 6]
  wf := gather_S500000x6_S1000000x1_S1000000x6_1_0_n_n_0_1_16_wf
def gather_S1000000x18_S2000000x1_S2000000x18_1_0_n_n_0_1_118 : GatherDims S1000000x18 S2000000x1 S2000000x18 where
  offsetDims := [1]
  collapsedSliceDims := [0]
  operandBatchingDims := []
  startIndicesBatchingDims := []
  startIndexMap := [0]
  indexVectorDim := 1
  sliceSizes := ![1, 18]
  wf := gather_S1000000x18_S2000000x1_S2000000x18_1_0_n_n_0_1_118_wf

abbrev win0_0 : Pipeline.Window sig grid0 :=
  Pipeline.Window.ofSpec (Memref.whole main_v39) S18x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S3x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S3x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v42) S3x32768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S2000000 : Shape := ⟨1, ![2000000]⟩
abbrev S500000x3 : Shape := ⟨2, ![500000, 3]⟩
abbrev S1000000x3 : Shape := ⟨2, ![1000000, 3]⟩
abbrev S_ : Shape := ⟨0, ![]⟩
abbrev S2000000x1 : Shape := ⟨2, ![2000000, 1]⟩
abbrev S2000000x3x1 : Shape := ⟨3, ![2000000, 3, 1]⟩
abbrev S2000000x3x3 : Shape := ⟨3, ![2000000, 3, 3]⟩
abbrev S2000000x1x3 : Shape := ⟨3, ![2000000, 1, 3]⟩

abbrev nBuf : Space → Nat
  | .hbm => 106
  | .vmem => 0
  | .smem => 0
  | _ => 0

abbrev bufTy : (tb : Table) → Fin (tcTables nBuf tb) → BufTy
  | .hbm, ⟨0, _⟩ => ⟨S2000000x3, .f32⟩
  | .hbm, ⟨1, _⟩ => ⟨S2000000x3, .f32⟩
  | .hbm, ⟨2, _⟩ => ⟨S2000000, .i32⟩
  | .hbm, ⟨3, _⟩ => ⟨S500000x3, .f32⟩
  | .hbm, ⟨4, _⟩ => ⟨S1000000x3, .i32⟩
  | .hbm, ⟨5, _⟩ => ⟨S500000x3, .f32⟩
  | .hbm, ⟨6, _⟩ => ⟨S_, .i32⟩
  | .hbm, ⟨7, _⟩ => ⟨S2000000, .i32⟩
  | .hbm, ⟨8, _⟩ => ⟨S2000000, .i1⟩
  | .hbm, ⟨9, _⟩ => ⟨S_, .i32⟩
  | .hbm, ⟨10, _⟩ => ⟨S2000000, .i32⟩
  | .hbm, ⟨11, _⟩ => ⟨S2000000, .i32⟩
  | .hbm, ⟨12, _⟩ => ⟨S2000000, .i32⟩
  | .hbm, ⟨13, _⟩ => ⟨S2000000x1, .i32⟩
  | .hbm, ⟨14, _⟩ => ⟨S2000000x3, .i32⟩
  | .hbm, ⟨15, _⟩ => ⟨S_, .i32⟩
  | .hbm, ⟨16, _⟩ => ⟨S2000000x3, .i32⟩
  | .hbm, ⟨17, _⟩ => ⟨S2000000x3, .i1⟩
  | .hbm, ⟨18, _⟩ => ⟨S_, .i32⟩
  | .hbm, ⟨19, _⟩ => ⟨S2000000x3, .i32⟩
  | .hbm, ⟨20, _⟩ => ⟨S2000000x3, .i32⟩
  | .hbm, ⟨21, _⟩ => ⟨S2000000x3, .i32⟩
  | .hbm, ⟨22, _⟩ => ⟨S2000000x3x1, .i32⟩
  | .hbm, ⟨23, _⟩ => ⟨S2000000x3x3, .f32⟩
  | .hbm, ⟨24, _⟩ => ⟨S2000000x1x3, .f32⟩
  | .hbm, ⟨25, _⟩ => ⟨S2000000x3, .f32⟩
  | .hbm, ⟨26, _⟩ => ⟨S2000000x1x3, .f32⟩
  | .hbm, ⟨27, _⟩ => ⟨S2000000x3, .f32⟩
  | .hbm, ⟨28, _⟩ => ⟨S2000000x1x3, .f32⟩
  | .hbm, ⟨29, _⟩ => ⟨S2000000x3, .f32⟩
  | .hbm, ⟨30, _⟩ => ⟨S2000000x3, .f32⟩
  | .hbm, ⟨31, _⟩ => ⟨S2000000x3, .f32⟩
  | .hbm, ⟨32, _⟩ => ⟨S2000000x3, .f32⟩
  | .hbm, ⟨33, _⟩ => ⟨S2000000x3, .f32⟩
  | .hbm, ⟨34, _⟩ => ⟨S_, .f32⟩
  | .hbm, ⟨35, _⟩ => ⟨S2000000, .f32⟩
  | .hbm, ⟨36, _⟩ => ⟨S2000000x3, .f32⟩
  | .hbm, ⟨37, _⟩ => ⟨S_, .f32⟩
  | .hbm, ⟨38, _⟩ => ⟨S2000000, .f32⟩
  | .hbm, ⟨39, _⟩ => ⟨S2000000x3, .f32⟩
  | .hbm, ⟨40, _⟩ => ⟨S_, .f32⟩
  | .hbm, ⟨41, _⟩ => ⟨S2000000, .f32⟩
  | .hbm, ⟨42, _⟩ => ⟨S2000000x3, .f32⟩
  | .hbm, ⟨43, _⟩ => ⟨S_, .f32⟩
  | .hbm, ⟨44, _⟩ => ⟨S2000000, .f32⟩
  | .hbm, ⟨45, _⟩ => ⟨S2000000x3, .f32⟩
  | .hbm, ⟨46, _⟩ => ⟨S_, .f32⟩
  | .hbm, ⟨47, _⟩ => ⟨S2000000, .f32⟩
  | .hbm, ⟨48, _⟩ => ⟨S2000000, .f32⟩
  | .hbm, ⟨49, _⟩ => ⟨S2000000, .f32⟩
  | .hbm, ⟨50, _⟩ => ⟨S2000000, .f32⟩
  | .hbm, ⟨51, _⟩ => ⟨S2000000, .f32⟩
  | .hbm, ⟨52, _⟩ => ⟨S2000000, .f32⟩
  | .hbm, ⟨53, _⟩ => ⟨S2000000, .f32⟩
  | .hbm, ⟨54, _⟩ => ⟨S2000000, .f32⟩
  | .hbm, ⟨55, _⟩ => ⟨S2000000, .f32⟩
  | .hbm, ⟨56, _⟩ => ⟨S2000000, .f32⟩
  | .hbm, ⟨57, _⟩ => ⟨S2000000, .f32⟩
  | .hbm, ⟨58, _⟩ => ⟨S2000000, .f32⟩
  | .hbm, ⟨59, _⟩ => ⟨S_, .f32⟩
  | .hbm, ⟨60, _⟩ => ⟨S2000000, .f32⟩
  | .hbm, ⟨61, _⟩ => ⟨S2000000, .f32⟩
  | .hbm, ⟨62, _⟩ => ⟨S2000000, .f32⟩
  | .hbm, ⟨63, _⟩ => ⟨S_, .i32⟩
  | .hbm, ⟨64, _⟩ => ⟨S2000000x3, .i32⟩
  | .hbm, ⟨65, _⟩ => ⟨S2000000x3, .i1⟩
  | .hbm, ⟨66, _⟩ => ⟨S_, .i32⟩
  | .hbm, ⟨67, _⟩ => ⟨S2000000x3, .i32⟩
  | .hbm, ⟨68, _⟩ => ⟨S2000000x3, .i32⟩
  | .hbm, ⟨69, _⟩ => ⟨S2000000x3, .i32⟩
  | .hbm, ⟨70, _⟩ => ⟨S2000000x3x1, .i32⟩
  | .hbm, ⟨71, _⟩ => ⟨S2000000x3x3, .f32⟩
  | .hbm, ⟨72, _⟩ => ⟨S2000000x1, .f32⟩
  | .hbm, ⟨73, _⟩ => ⟨S2000000x1x3, .f32⟩
  | .hbm, ⟨74, _⟩ => ⟨S2000000x3, .f32⟩
  | .hbm, ⟨75, _⟩ => ⟨S2000000x3, .f32⟩
  | .hbm, ⟨76, _⟩ => ⟨S2000000x3, .f32⟩
  | .hbm, ⟨77, _⟩ => ⟨S2000000x1, .f32⟩
  | .hbm, ⟨78, _⟩ => ⟨S2000000x1x3, .f32⟩
  | .hbm, ⟨79, _⟩ => ⟨S2000000x3, .f32⟩
  | .hbm, ⟨80, _⟩ => ⟨S2000000x3, .f32⟩
  | .hbm, ⟨81, _⟩ => ⟨S2000000x3, .f32⟩
  | .hbm, ⟨82, _⟩ => ⟨S2000000x3, .f32⟩
  | .hbm, ⟨83, _⟩ => ⟨S2000000x1, .f32⟩
  | .hbm, ⟨84, _⟩ => ⟨S2000000x1x3, .f32⟩
  | .hbm, ⟨85, _⟩ => ⟨S2000000x3, .f32⟩
  | .hbm, ⟨86, _⟩ => ⟨S2000000x3, .f32⟩
  | .hbm, ⟨87, _⟩ => ⟨S2000000x3, .f32⟩
  | .hbm, ⟨88, _⟩ => ⟨S2000000x3, .f32⟩
  | .hbm, ⟨89, _⟩ => ⟨S_, .f32⟩
  | .hbm, ⟨90, _⟩ => ⟨S2000000x3, .f32⟩
  | .hbm, ⟨91, _⟩ => ⟨S2000000x3, .f32⟩
  | .hbm, ⟨92, _⟩ => ⟨S_, .f32⟩
  | .hbm, ⟨93, _⟩ => ⟨S2000000x3, .f32⟩
  | .hbm, ⟨94, _⟩ => ⟨S2000000x3, .f32⟩
  | .hbm, ⟨95, _⟩ => ⟨S_, .f32⟩
  | .hbm, ⟨96, _⟩ => ⟨S2000000x3, .f32⟩
  | .hbm, ⟨97, _⟩ => ⟨S2000000x3, .f32⟩
  | .hbm, ⟨98, _⟩ => ⟨S2000000x3, .f32⟩
  | .hbm, ⟨99, _⟩ => ⟨S2000000x3, .f32⟩
  | .hbm, ⟨100, _⟩ => ⟨S_, .f32⟩
  | .hbm, ⟨101, _⟩ => ⟨S2000000, .f32⟩
  | .hbm, ⟨102, _⟩ => ⟨S2000000x1, .f32⟩
  | .hbm, ⟨103, _⟩ => ⟨S2000000x1, .f32⟩
  | .hbm, ⟨104, _⟩ => ⟨S2000000x3, .f32⟩
  | .hbm, ⟨105, _⟩ => ⟨S2000000x3, .f32⟩
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_10 : Ref sig .tc := ⟨.hbm, 89, rfl⟩
abbrev main_v71 : Ref sig .tc := ⟨.hbm, 90, rfl⟩
abbrev main_v72 : Ref sig .tc := ⟨.hbm, 91, rfl⟩
abbrev main_cst_11 : Ref sig .tc := ⟨.hbm, 92, rfl⟩
abbrev main_v73 : Ref sig .tc := ⟨.hbm, 93, rfl⟩
abbrev main_v74 : Ref sig .tc := ⟨.hbm, 94, rfl⟩
abbrev main_cst_12 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_call0_v0 : Ref sig .tc := ⟨.hbm, 99, rfl⟩
abbrev main_call0_cst : Ref sig .tc := ⟨.hbm, 100, rfl⟩
abbrev main_call0_v1 : Ref sig .tc := ⟨.hbm, 101, rfl⟩
abbrev main_call0_v2 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x3 : S_.BroadcastsInDim S2000000x3 (![] : Fin 0 → Fin S2000000x3.rank)
  bcast_S2000000x3_S2000000x3x1_0_1 : S2000000x3.BroadcastsInDim S2000000x3x1 (![0, 1] : Fin 2 → Fin S2000000x3x1.rank)
  slices_S2000000x3x3_S2000000x1x3_0_0_0 : S2000000x3x3.Slices ![0, 0, 0] S2000000x1x3
  shapeCasts_S2000000x1x3_S2000000x3 : S2000000x1x3.ShapeCasts S2000000x3
  slices_S2000000x3x3_S2000000x1x3_0_1_0 : S2000000x3x3.Slices ![0, 1, 0] S2000000x1x3
  slices_S2000000x3x3_S2000000x1x3_0_2_0 : S2000000x3x3.Slices ![0, 2, 0] S2000000x1x3
  reducesTo_S2000000x3_S2000000_d1 : S2000000x3.ReducesTo [1] S2000000
  h_S_ : 0 < S_.numel
  bcast_S2000000x1_S2000000x3_0_1 : S2000000x1.BroadcastsInDim S2000000x3 (![0, 1] : Fin 2 → Fin S2000000x3.rank)
  gather_S1000000x3_S2000000x1_S2000000x3_1_0_n_n_0_1_13_wf : GatherDims.WF S1000000x3 S2000000x1 S2000000x3 [1] [0] [] [0] [] 1 ![1, 3]
  gather_S500000x3_S2000000x3x1_S2000000x3x3_2_0_n_n_0_2_13_wf : GatherDims.WF S500000x3 S2000000x3x1 S2000000x3x3 [2] [0] [] [0] [] 2 ![1, 3]

variable [Facts₀]

def gather_S1000000x3_S2000000x1_S2000000x3_1_0_n_n_0_1_13 : GatherDims S1000000x3 S2000000x1 S2000000x3 where
  offsetDims := [1]
  collapsedSliceDims := [0]
  operandBatchingDims := []
  startIndicesBatchingDims := []
  startIndexMap := [0]
  indexVectorDim := 1
  sliceSizes := ![1, 3]
  wf := gather_S1000000x3_S2000000x1_S2000000x3_1_0_n_n_0_1_13_wf
def gather_S500000x3_S2000000x3x1_S2000000x3x3_2_0_n_n_0_2_13 : GatherDims S500000x3 S2000000x3x1 S2000000x3x3 where
  offsetDims := [2]
  collapsedSliceDims := [0]
  operandBatchingDims := []
  startIndicesBatchingDims := []
  startIndexMap := [0]
  indexVectorDim := 2
  sliceSizes := ![1, 3]
  wf := gather_S500000x3_S2000000x3x1_S2000000x3x3_2_0_n_n_0_2_13_wf

class Facts : Prop extends Facts₀ where

variable [Facts]
-- ==== Proof.KFrame.lean ====
/-
  The frame run of the program around its one region.

  The program gathers, for every hit, the three vertices of its triangle into one row of 18 numbers, lays the three
  per-hit tables out with the hits along the columns, pads them to 62 blocks of 32768 columns, runs one body per block,
  and undoes the layout. Here: the program terminates without a fault from any memory, the region's four tables end at
  what the body computes block by block, and the six argument arrays end as they were.
-/
import proofs.«408861_j29884382445937_3_alg».proof.Proof.Gen.KernelIdeal.Launch
import proofs.«408861_j29884382445937_3_alg».proof.Proof.Gen.KernelIdeal.Skeleton
import proofs.«408861_j29884382445937_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region is entered with

Before the region the program runs six stretches of host operations: the gather of the three vertices' rows of every
hit's triangle into one 18-row table, the transposes of the two per-hit inputs, and the three paddings of the
transposed tables to a multiple of the block width. Each operation writes one buffer, its own result; no
argument array is such a result. -/

/-- Core c's TensorCore buffers when the region is entered: the launch contents pushed through the six stretches. -/
abbrev V0 (c : Dev nD) : Valuation τ sig (Elt F) :=
  StableHlo.after (List.flatten [hostOps0, hostOps0_1, hostOps0_2, hostOps0_3, hostOps0_4, hostOps0_5]) (fun b => m (c, b))
/-- The same, read at a TensorCore reference. -/
abbrev V (c : Dev nD) (b : Ref sig .tc) : Buf (Elt F) ((c : Thread nD τ).loc b) := V0 m c (Proc.devRef .tc b)

/-- No host operation allocates a buffer: every one of them has an empty set of fresh buffers. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the six stretches, the region, and the closing stretch: so running it from the launch memory is
    running the region from V, continued by the closing stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5] [hostOps1]
    (by simp only [List.Forall]
        exact ⟨hostOps0_sub, hostOps0_1_sub, hostOps0_2_sub, hostOps0_3_sub, hostOps0_4_sub, hostOps0_5_sub⟩)
    (by simp only [List.Forall]
        exact ⟨hostOps0_fresh, hostOps0_1_fresh, hostOps0_2_fresh, hostOps0_3_fresh, hostOps0_4_fresh, hostOps0_5_fresh⟩)
    main_chain

/-! ## The closing stretch

After the region the padded columns of the result are sliced away and the table is transposed back: two operations,
each reading one unscoped buffer and writing its own result, which is none of the four tables the region works on. -/

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals
    intro w
    fin_cases w <;> simp only [StableHlo.unary_writes, Finset.mem_singleton] <;>
      exact StableHlo.devRef_ne_of_ne (by decide)

/-! ## The argument arrays are never written

Each of the 57 operations before the region and each of the 2 after it writes exactly one buffer, and that buffer is
a value of the program, never one of its six arguments: compared reference by reference. -/

/-- The six stretches, operation by operation: none writes the reference in the goal. -/
local macro "prefix_keeps" : tactic => `(tactic| (
  simp only [hostOps0, hostOps0_1, hostOps0_2, hostOps0_3, hostOps0_4, hostOps0_5, List.flatten_cons, List.flatten_nil,
    List.append_nil, List.cons_append, List.nil_append, List.Forall, StableHlo.nullary_writes, StableHlo.unary_writes,
    StableHlo.binary_writes, StableHlo.ternary_writes, StableHlo.reshape_writes, StableHlo.nary_writes, Finset.mem_singleton]
  repeat' apply And.intro
  all_goals exact StableHlo.devRef_ne_of_ne (by decide)))

/-- The closing stretch, the same. -/
local macro "suffix_keeps" : tactic => `(tactic| (
  simp only [hostOps1, List.flatten_cons, List.flatten_nil, List.append_nil, List.cons_append, List.nil_append, List.Forall,
    StableHlo.unary_writes, Finset.mem_singleton]
  repeat' apply And.intro
  all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (List.forall_iff_forall_mem.mp (by prefix_keeps))
theorem V_main_arg1 (c : Dev nD) : V m c main_arg1 = m ((c : Thread nD τ).loc main_arg1) :=
  StableHlo.after_of_forall_not_mem (b := Proc.devRef .tc main_arg1) _ _ (List.forall_iff_forall_mem.mp (by prefix_keeps))
theorem V_main_arg2 (c : Dev nD) : V m c main_arg2 = m ((c : Thread nD τ).loc main_arg2) :=
  StableHlo.after_of_forall_not_mem (b := Proc.devRef .tc main_arg2) _ _ (List.forall_iff_forall_mem.mp (by prefix_keeps))
theorem V_main_arg3 (c : Dev nD) : V m c main_arg3 = m ((c : Thread nD τ).loc main_arg3) :=
  StableHlo.after_of_forall_not_mem (b := Proc.devRef .tc main_arg3) _ _ (List.forall_iff_forall_mem.mp (by prefix_keeps))
theorem V_main_arg4 (c : Dev nD) : V m c main_arg4 = m ((c : Thread nD τ).loc main_arg4) :=
  StableHlo.after_of_forall_not_mem (b := Proc.devRef .tc main_arg4) _ _ (List.forall_iff_forall_mem.mp (by prefix_keeps))
theorem V_main_arg5 (c : Dev nD) : V m c main_arg5 = m ((c : Thread nD τ).loc main_arg5) :=
  StableHlo.after_of_forall_not_mem (b := Proc.devRef .tc main_arg5) _ _ (List.forall_iff_forall_mem.mp (by prefix_keeps))

/-- After the closing stretch an argument array still holds its launch contents: the stretch does not write it, the
    region's four tables are other buffers, and the six stretches before did not write it either. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by suffix_keeps)),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by suffix_keeps)),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by suffix_keeps)),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by suffix_keeps)),
    Pipeline.withArrays_of_ne _ c (V0 m c) _ main_arg3 (by exact (by decide : ∀ w, Pipeline.arrRef spec0 w ≠ main_arg3))]
  exact V_main_arg3 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by suffix_keeps)),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by suffix_keeps)),
    Pipeline.withArrays_of_ne _ c (V0 m c) _ main_arg5 (by exact (by decide : ∀ w, Pipeline.arrRef spec0 w ≠ main_arg5))]
  exact V_main_arg5 m c

/-! ## The windows' blocks

The region walks the 62 blocks of 32768 columns of the four padded tables: window 0 the 18-row table of gathered
vertex rows, windows 1 and 2 the 3-row tables of the hits' positions and normals, window 3 the 3-row result. -/

/-- Window w's block at point t, read off its table as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds that window's block at every point, whether or not the block was fetched
    at that very point: an unfetched block is the previous point's, whose index is the same. For any proof data whose
    table is V's and whose body leaves the block where it found it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the frame claim's

The region's four tables are values of the program (the three padded inputs and the padded result), so none of the six
argument arrays is one of them: each argument is a buffer that bypasses the region, and the run's post says such a
buffer ends as the closing stretch leaves it, which is as launched. -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

/-! ## What the body computes

The body reads its three input blocks whole, computes, and writes its output block whole, once. -/

/-- The whole 18 x 32768 block and the whole 3 x 32768 block, as the rectangles the body's loads and its store name. -/
abbrev r18 : Rect S18x32768 := Rect.unit (s := S18x32768) ![0, 0] S18x32768.size inb_S18x32768_S18x32768_0_0
abbrev r3 : Rect S3x32768 := Rect.unit (s := S3x32768) ![0, 0] S3x32768.size inb_S3x32768_S3x32768_0_0

/-- The output block after the body, from the three input blocks: the one store's payload over the whole block. The
    payload is the blended normal scaled to unit length, column by column: the barycentric weights from the
    gathered vertex rows (block 0) and the hit's position (block 1), the interpolated feature blended into the hit's
    normal (block 2), times the reciprocal square root of its squared length. -/
def out0_3 (x0 : Vec F S18x32768 .f32) (x1 x2 : Vec F S3x32768 .f32) : Vec F S3x32768 .f32 :=
  View.canon [⟨r3, k0_pay1 (k0_pay4 (View.ld x0 r18)) (k0_pay5 (View.ld x0 r18)) (k0_pay6 (View.ld x2 r3))
    (k0_pay17 (View.ld x0 r18) (View.ld x1 r3)) (k0_pay18 (View.ld x0 r18) (View.ld x1 r3)) (k0_pay19 (View.ld x0 r18) (View.ld x1 r3))⟩]

/-- The one store is to the whole block, so it covers it. -/
theorem cover0_3 (p0 : Vec F S3x32768 .f32) (y : S3x32768.Idx) :
    ∃ pc ∈ ([⟨r3, p0⟩] : List (View.Piece (Elt F) S3x32768 .f32)), y ∈ pc.1.set :=
  View.cover_of_tiled [⟨r3, p0⟩] S3x32768.size (by rfl) y

set_option maxHeartbeats 1000000 in
/-- The body on four whole staging buffers, the inputs' reading x0, x1, x2 and the output's holding anything: it
    returns with the inputs' unchanged and the output's reading out0_3 x0 x1 x2. The three loads read the inputs'
    contents; the load of the output buffer reads whatever was there and its value goes nowhere; the store then
    overwrites the whole buffer, so what was there does not matter. -/
theorem sound_kernel (c : Dev nD) (E : Set ℕ) (i : grid0.Coords)
    (arg1 : Memref sig .tc .vmem S18x32768 .f32) (harg1 : arg1.IsWhole) (arg2 : Memref sig .tc .vmem S3x32768 .f32) (harg2 : arg2.IsWhole)
    (arg3 : Memref sig .tc .vmem S3x32768 .f32) (harg3 : arg3.IsWhole) (arg4 : Memref sig .tc .vmem S3x32768 .f32) (harg4 : arg4.IsWhole)
    (x0 : Vec F S18x32768 .f32) (x1 : Vec F S3x32768 .f32) (x2 : Vec F S3x32768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__hit_kernel i arg1 harg1 arg2 harg2 arg3 harg3 arg4 harg4) K := by
  simp only [cc0__hit_kernel_eq_skeleton]; unfold cc0__hit_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The proof data of the region -/

/-- On core c: the four tables as the region finds them; after the body at point t, each input's buffer at its block
    and the output's at out0_3 of the three input blocks; the scoped rest untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's tables are the region-entry contents: by projection, the fold over the 57 operations stays folded. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by
  dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program on the TensorCores terminates without
    a fault; at the end each of the region's four tables holds what the proof data computes, and every other unscoped
    buffer what the closing stretch leaves of it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.KFrameBits.lean ====
/-
  The frame run of the program around its one region.

  The program gathers, for every hit, the three vertices of its triangle into one row of 18 numbers, lays the three
  per-hit tables out with the hits along the columns, pads them to 62 blocks of 32768 columns, runs one body per block,
  and undoes the layout. Here: the program terminates without a fault from any memory, the region's four tables end at
  what the body computes block by block, and the six argument arrays end as they were.
-/
import proofs.«408861_j29884382445937_3_alg».proof.Proof.Gen.Kernel.Launch
import proofs.«408861_j29884382445937_3_alg».proof.Proof.Gen.Kernel.Skeleton
import proofs.«408861_j29884382445937_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region is entered with

Before the region the program runs six stretches of host operations: the gather of the three vertices' rows of every
hit's triangle into one 18-row table, the transposes of the two per-hit inputs, and the three paddings of the
transposed tables to a multiple of the block width. Each operation writes one buffer, its own result; no
argument array is such a result. -/

/-- Core c's TensorCore buffers when the region is entered: the launch contents pushed through the six stretches. -/
abbrev V0 (c : Dev nD) : Valuation τ sig (Elt F) :=
  StableHlo.after (List.flatten [hostOps0, hostOps0_1, hostOps0_2, hostOps0_3, hostOps0_4, hostOps0_5]) (fun b => m (c, b))
/-- The same, read at a TensorCore reference. -/
abbrev V (c : Dev nD) (b : Ref sig .tc) : Buf (Elt F) ((c : Thread nD τ).loc b) := V0 m c (Proc.devRef .tc b)

/-- No host operation allocates a buffer: every one of them has an empty set of fresh buffers. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the six stretches, the region, and the closing stretch: so running it from the launch memory is
    running the region from V, continued by the closing stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5] [hostOps1]
    (by simp only [List.Forall]
        exact ⟨hostOps0_sub, hostOps0_1_sub, hostOps0_2_sub, hostOps0_3_sub, hostOps0_4_sub, hostOps0_5_sub⟩)
    (by simp only [List.Forall]
        exact ⟨hostOps0_fresh, hostOps0_1_fresh, hostOps0_2_fresh, hostOps0_3_fresh, hostOps0_4_fresh, hostOps0_5_fresh⟩)
    main_chain

/-! ## The closing stretch

After the region the padded columns of the result are sliced away and the table is transposed back: two operations,
each reading one unscoped buffer and writing its own result, which is none of the four tables the region works on. -/

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals
    intro w
    fin_cases w <;> simp only [StableHlo.unary_writes, Finset.mem_singleton] <;>
      exact StableHlo.devRef_ne_of_ne (by decide)

/-! ## The argument arrays are never written

Each of the 57 operations before the region and each of the 2 after it writes exactly one buffer, and that buffer is
a value of the program, never one of its six arguments: compared reference by reference. -/

/-- The six stretches, operation by operation: none writes the reference in the goal. -/
local macro "prefix_keeps" : tactic => `(tactic| (
  simp only [hostOps0, hostOps0_1, hostOps0_2, hostOps0_3, hostOps0_4, hostOps0_5, List.flatten_cons, List.flatten_nil,
    List.append_nil, List.cons_append, List.nil_append, List.Forall, StableHlo.nullary_writes, StableHlo.unary_writes,
    StableHlo.binary_writes, StableHlo.ternary_writes, StableHlo.reshape_writes, StableHlo.nary_writes, Finset.mem_singleton]
  repeat' apply And.intro
  all_goals exact StableHlo.devRef_ne_of_ne (by decide)))

/-- The closing stretch, the same. -/
local macro "suffix_keeps" : tactic => `(tactic| (
  simp only [hostOps1, List.flatten_cons, List.flatten_nil, List.append_nil, List.cons_append, List.nil_append, List.Forall,
    StableHlo.unary_writes, Finset.mem_singleton]
  repeat' apply And.intro
  all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (List.forall_iff_forall_mem.mp (by prefix_keeps))
theorem V_main_arg1 (c : Dev nD) : V m c main_arg1 = m ((c : Thread nD τ).loc main_arg1) :=
  StableHlo.after_of_forall_not_mem (b := Proc.devRef .tc main_arg1) _ _ (List.forall_iff_forall_mem.mp (by prefix_keeps))
theorem V_main_arg2 (c : Dev nD) : V m c main_arg2 = m ((c : Thread nD τ).loc main_arg2) :=
  StableHlo.after_of_forall_not_mem (b := Proc.devRef .tc main_arg2) _ _ (List.forall_iff_forall_mem.mp (by prefix_keeps))
theorem V_main_arg3 (c : Dev nD) : V m c main_arg3 = m ((c : Thread nD τ).loc main_arg3) :=
  StableHlo.after_of_forall_not_mem (b := Proc.devRef .tc main_arg3) _ _ (List.forall_iff_forall_mem.mp (by prefix_keeps))
theorem V_main_arg4 (c : Dev nD) : V m c main_arg4 = m ((c : Thread nD τ).loc main_arg4) :=
  StableHlo.after_of_forall_not_mem (b := Proc.devRef .tc main_arg4) _ _ (List.forall_iff_forall_mem.mp (by prefix_keeps))
theorem V_main_arg5 (c : Dev nD) : V m c main_arg5 = m ((c : Thread nD τ).loc main_arg5) :=
  StableHlo.after_of_forall_not_mem (b := Proc.devRef .tc main_arg5) _ _ (List.forall_iff_forall_mem.mp (by prefix_keeps))

/-- After the closing stretch an argument array still holds its launch contents: the stretch does not write it, the
    region's four tables are other buffers, and the six stretches before did not write it either. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by suffix_keeps)),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by suffix_keeps)),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by suffix_keeps)),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by suffix_keeps)),
    Pipeline.withArrays_of_ne _ c (V0 m c) _ main_arg3 (by exact (by decide : ∀ w, Pipeline.arrRef spec0 w ≠ main_arg3))]
  exact V_main_arg3 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by suffix_keeps)),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by suffix_keeps)),
    Pipeline.withArrays_of_ne _ c (V0 m c) _ main_arg5 (by exact (by decide : ∀ w, Pipeline.arrRef spec0 w ≠ main_arg5))]
  exact V_main_arg5 m c

/-! ## The windows' blocks

The region walks the 62 blocks of 32768 columns of the four padded tables: window 0 the 18-row table of gathered
vertex rows, windows 1 and 2 the 3-row tables of the hits' positions and normals, window 3 the 3-row result. -/

/-- Window w's block at point t, read off its table as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds that window's block at every point, whether or not the block was fetched
    at that very point: an unfetched block is the previous point's, whose index is the same. For any proof data whose
    table is V's and whose body leaves the block where it found it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the frame claim's

The region's four tables are values of the program (the three padded inputs and the padded result), so none of the six
argument arrays is one of them: each argument is a buffer that bypasses the region, and the run's post says such a
buffer ends as the closing stretch leaves it, which is as launched. -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

/-! ## What the body computes

The body reads its three input blocks whole, computes, and writes its output block whole, once. -/

/-- The whole 18 x 32768 block and the whole 3 x 32768 block, as the rectangles the body's loads and its store name. -/
abbrev r18 : Rect S18x32768 := Rect.unit (s := S18x32768) ![0, 0] S18x32768.size inb_S18x32768_S18x32768_0_0
abbrev r3 : Rect S3x32768 := Rect.unit (s := S3x32768) ![0, 0] S3x32768.size inb_S3x32768_S3x32768_0_0

/-- The output block after the body, from the three input blocks: the one store's payload over the whole block. The
    payload is the blended normal scaled to unit length, column by column: the barycentric weights from the
    gathered vertex rows (block 0) and the hit's position (block 1), the interpolated feature blended into the hit's
    normal (block 2), times the reciprocal square root of its squared length. -/
def out0_3 (x0 : Vec F S18x32768 .f32) (x1 x2 : Vec F S3x32768 .f32) : Vec F S3x32768 .f32 :=
  View.canon [⟨r3, k0_pay1 (k0_pay4 (View.ld x0 r18)) (k0_pay5 (View.ld x0 r18)) (k0_pay6 (View.ld x2 r3))
    (k0_pay17 (View.ld x0 r18) (View.ld x1 r3)) (k0_pay18 (View.ld x0 r18) (View.ld x1 r3)) (k0_pay19 (View.ld x0 r18) (View.ld x1 r3))⟩]

/-- The one store is to the whole block, so it covers it. -/
theorem cover0_3 (p0 : Vec F S3x32768 .f32) (y : S3x32768.Idx) :
    ∃ pc ∈ ([⟨r3, p0⟩] : List (View.Piece (Elt F) S3x32768 .f32)), y ∈ pc.1.set :=
  View.cover_of_tiled [⟨r3, p0⟩] S3x32768.size (by rfl) y

set_option maxHeartbeats 1000000 in
/-- The body on four whole staging buffers, the inputs' reading x0, x1, x2 and the output's holding anything: it
    returns with the inputs' unchanged and the output's reading out0_3 x0 x1 x2. The three loads read the inputs'
    contents; the load of the output buffer reads whatever was there and its value goes nowhere; the store then
    overwrites the whole buffer, so what was there does not matter. -/
theorem sound_kernel (c : Dev nD) (E : Set ℕ) (i : grid0.Coords)
    (arg1 : Memref sig .tc .vmem S18x32768 .f32) (harg1 : arg1.IsWhole) (arg2 : Memref sig .tc .vmem S3x32768 .f32) (harg2 : arg2.IsWhole)
    (arg3 : Memref sig .tc .vmem S3x32768 .f32) (harg3 : arg3.IsWhole) (arg4 : Memref sig .tc .vmem S3x32768 .f32) (harg4 : arg4.IsWhole)
    (x0 : Vec F S18x32768 .f32) (x1 : Vec F S3x32768 .f32) (x2 : Vec F S3x32768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__hit_kernel i arg1 harg1 arg2 harg2 arg3 harg3 arg4 harg4) K := by
  simp only [cc0__hit_kernel_eq_skeleton]; unfold cc0__hit_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The proof data of the region -/

/-- On core c: the four tables as the region finds them; after the body at point t, each input's buffer at its block
    and the output's at out0_3 of the three input blocks; the scoped rest untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's tables are the region-entry contents: by projection, the fold over the 57 operations stays folded. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by
  dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program on the TensorCores terminates without
    a fault; at the end each of the region's four tables holds what the proof data computes, and every other unscoped
    buffer what the closing stretch leaves of it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.Spec.lean ====
/-
  The mathematics both programs compute, per hit h and component j, on the extended reals.

  A hit names a triangle (tri: its primitive id, a negative one counted from the end, clamped into the table),
  the triangle names three vertices (vtx: the same reading of the index buffer's entry), a vertex has a
  position row and a feature row. With the edges e1 = p1 - p0, e2 = p2 - p0 and pp = hit - p0, the five dot
  products give the barycentric weights bv, bw (two quotients by one Gram determinant) and bu = 1 - bv - bw;
  the interpolated feature nmap = bu f0 + bv f1 + bw f2 is blended into the hit's normal,
  Nv = n + (nmap 2 - 1) / 4, and the result is Nv scaled to unit length: by the reciprocal square root of its
  squared length s (outK), or divided by the square root of s (outR). The two scalings agree on every
  extended real as soon as 0 < s (scale_eq): at s = top both are 0, at a positive real both are the
  product with the inverse of the square root of s.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The arrays' shapes: hits x 3, hits, vertices x 3, triangles x 3. -/
abbrev SH3 : Shape := ⟨2, ![2000000, 3]⟩
abbrev SH : Shape := ⟨1, ![2000000]⟩
abbrev SV3 : Shape := ⟨2, ![500000, 3]⟩
abbrev ST3 : Shape := ⟨2, ![1000000, 3]⟩

/-- An index as jnp reads it: a negative one has the axis' extent n added. -/
def wrap (n w : BitVec 32) : BitVec 32 := Scalar.select (IntOp.cmpi .slt w 0#32) (IntOp.addi w n) w

/-- A start index read signed and clamped into a table of N rows. -/
def row (N : Nat) (hN : 0 < N) (w : BitVec 32) : Fin N := ⟨min w.toInt.toNat (N - 1), by omega⟩

/-- The float words the programs carry: 1, 2, 1/4. -/
abbrev one : EReal := Ideal.ofBits .f32 0x3F800000#32
abbrev two : EReal := Ideal.ofBits .f32 0x40000000#32
abbrev quarter : EReal := Ideal.ofBits .f32 0x3E800000#32

/-- The dot product of two 3-vectors. -/
def dot (a b : Fin 3 → EReal) : EReal := ∑ j : Fin 3, a j * b j

/-! ## One hit, from its three vertices' rows and its own two rows -/

section Point
variable (p0 f0 p1 f1 p2 f2 hp hn : Fin 3 → EReal)

def e1 : Fin 3 → EReal := fun j => p1 j - p0 j
def e2 : Fin 3 → EReal := fun j => p2 j - p0 j
def pp : Fin 3 → EReal := fun j => hp j - p0 j
def d00 : EReal := dot (e1 p0 p1) (e1 p0 p1)
def d01 : EReal := dot (e1 p0 p1) (e2 p0 p2)
def d11 : EReal := dot (e2 p0 p2) (e2 p0 p2)
def d20 : EReal := dot (pp p0 hp) (e1 p0 p1)
def d21 : EReal := dot (pp p0 hp) (e2 p0 p2)
def denom : EReal := d00 p0 p1 * d11 p0 p2 - d01 p0 p1 p2 * d01 p0 p1 p2
def bv : EReal := Ideal.div (d11 p0 p2 * d20 p0 p1 hp - d01 p0 p1 p2 * d21 p0 p2 hp) (denom p0 p1 p2)
def bw : EReal := Ideal.div (d00 p0 p1 * d21 p0 p2 hp - d01 p0 p1 p2 * d20 p0 p1 hp) (denom p0 p1 p2)
def bu : EReal := one - bv p0 p1 p2 hp - bw p0 p1 p2 hp
def nmap (j : Fin 3) : EReal := bu p0 p1 p2 hp * f0 j + bv p0 p1 p2 hp * f1 j + bw p0 p1 p2 hp * f2 j
/-- The blended normal. -/
def blend (j : Fin 3) : EReal := hn j + (nmap p0 f0 p1 f1 p2 f2 hp j * two - one) * quarter
/-- Its squared length. -/
def sq : EReal := dot (blend p0 f0 p1 f1 p2 f2 hp hn) (blend p0 f0 p1 f1 p2 f2 hp hn)
/-- Scaled by the reciprocal square root (the kernel's closing step). -/
def unitK (j : Fin 3) : EReal := blend p0 f0 p1 f1 p2 f2 hp hn j * Ideal.rsqrt (sq p0 f0 p1 f1 p2 f2 hp hn)
/-- Divided by the norm (the reference's closing step). -/
def unitR (j : Fin 3) : EReal := Ideal.div (blend p0 f0 p1 f1 p2 f2 hp hn j) (Ideal.sqrt (sq p0 f0 p1 f1 p2 f2 hp hn))

end Point

/-! ## The whole arrays -/

section Arrays
variable (P Nm : SH3.Idx → EReal) (prim : SH.Idx → BitVec 32) (vbo feat : SV3.Idx → EReal) (ibo : ST3.Idx → BitVec 32)

/-- The triangle hit h names. -/
def tri (h : Fin 2000000) : Fin 1000000 := row 1000000 (by decide) (wrap 1000000#32 (prim (ix1 h)))
/-- Its k-th vertex. -/
def vtx (h : Fin 2000000) (k : Fin 3) : Fin 500000 := row 500000 (by decide) (wrap 500000#32 (ibo (ix2 (tri prim h) k)))
/-- That vertex' position row and feature row. -/
def pv (h : Fin 2000000) (k : Fin 3) : Fin 3 → EReal := fun j => vbo (ix2 (vtx prim ibo h k) j)
def fv (h : Fin 2000000) (k : Fin 3) : Fin 3 → EReal := fun j => feat (ix2 (vtx prim ibo h k) j)
/-- The hit's own rows. -/
def hpos (h : Fin 2000000) : Fin 3 → EReal := fun j => P (ix2 h j)
def hnrm (h : Fin 2000000) : Fin 3 → EReal := fun j => Nm (ix2 h j)

/-- The blended normal of hit h, its squared length, and the two closing forms. -/
def Nv (h : Fin 2000000) (j : Fin 3) : EReal :=
  blend (pv prim vbo ibo h 0) (fv prim feat ibo h 0) (pv prim vbo ibo h 1) (fv prim feat ibo h 1) (pv prim vbo ibo h 2) (fv prim feat ibo h 2)
    (hpos P h) (hnrm Nm h) j
def s (h : Fin 2000000) : EReal :=
  sq (pv prim vbo ibo h 0) (fv prim feat ibo h 0) (pv prim vbo ibo h 1) (fv prim feat ibo h 1) (pv prim vbo ibo h 2) (fv prim feat ibo h 2)
    (hpos P h) (hnrm Nm h)
def outK (h : Fin 2000000) (j : Fin 3) : EReal :=
  unitK (pv prim vbo ibo h 0) (fv prim feat ibo h 0) (pv prim vbo ibo h 1) (fv prim feat ibo h 1) (pv prim vbo ibo h 2) (fv prim feat ibo h 2)
    (hpos P h) (hnrm Nm h) j
def outR (h : Fin 2000000) (j : Fin 3) : EReal :=
  unitR (pv prim vbo ibo h 0) (fv prim feat ibo h 0) (pv prim vbo ibo h 1) (fv prim feat ibo h 1) (pv prim vbo ibo h 2) (fv prim feat ibo h 2)
    (hpos P h) (hnrm Nm h) j

theorem s_eq (h : Fin 2000000) : s P Nm prim vbo feat ibo h = dot (Nv P Nm prim vbo feat ibo h) (Nv P Nm prim vbo feat ibo h) := rfl

end Arrays

/-! ## The two closing forms agree where the squared length is positive -/

/-- x * rsqrt s = x / sqrt s for every extended real x once 0 < s: at s = top both sides are x * 0; at a positive
    real s the quotient by the nonzero real sqrt s is the product with its inverse. -/
theorem scale_eq (x sv : EReal) (hs : 0 < sv) : x * Ideal.rsqrt sv = Ideal.div x (Ideal.sqrt sv) := by
  induction sv using EReal.rec with
  | bot => exact absurd hs (by simp)
  | top =>
    rw [Ideal.rsqrt_top, Ideal.sqrt_top, Ideal.div, if_neg (by simp), EReal.inv_top]
  | coe r =>
    have hr : 0 < r := by exact_mod_cast hs
    have hsq : 0 < Real.sqrt r := Real.sqrt_pos.mpr hr
    rw [Ideal.rsqrt_coe, Ideal.sqrt_coe, if_neg (not_lt.mpr hr.le), if_neg hr.ne', if_neg (not_lt.mpr hr.le), Ideal.div,
      if_neg (by exact_mod_cast hsq.ne'), EReal.coe_inv]

theorem unit_eq (p0 f0 p1 f1 p2 f2 hp hn : Fin 3 → EReal) (hs : 0 < sq p0 f0 p1 f1 p2 f2 hp hn) (j : Fin 3) :
    unitK p0 f0 p1 f1 p2 f2 hp hn j = unitR p0 f0 p1 f1 p2 f2 hp hn j :=
  scale_eq _ _ hs

theorem out_eq (P Nm : SH3.Idx → EReal) (prim : SH.Idx → BitVec 32) (vbo feat : SV3.Idx → EReal) (ibo : ST3.Idx → BitVec 32)
    (h : Fin 2000000) (hs : 0 < s P Nm prim vbo feat ibo h) (j : Fin 3) :
    outK P Nm prim vbo feat ibo h j = outR P Nm prim vbo feat ibo h j :=
  unit_eq _ _ _ _ _ _ _ _ hs j

end Cert.Spec

end
-- ==== Proof.KPayload.lean ====
/-
  The kernel body's arithmetic read at one index.

  The body holds an 18-row block (rows 0-2 p0, 3-5 f0, 6-8 p1, 9-11 f1, 12-14 p2, 15-17 f2; a column is one hit),
  the hits' positions and the hits' normals (3 rows each). It cuts the six 3-row pieces out of the block, forms the
  edges e1 = p1 - p0, e2 = p2 - p0 and pp = hit - p0, sums five products over the three rows (the dot products
  e1.e1, e1.e2, e2.e2, pp.e1, pp.e2, each a one-row block), takes the Gram determinant and the two quotients bv, bw,
  lays bu = (1 - bv) - bw, bv, bw back over three rows, blends bu f0 + bv f1 + bw f2 into the normal and scales the
  result by the reciprocal square root of its squared length, again a sum over the three rows.

  Every operation is pointwise in the lane, and a row operation (a cut, a sum over the rows, one row laid over three)
  relates row j over lane l only to rows over the same lane. So at row j and lane l the stored value is the unit-length
  blended normal of the specification, computed from the eight columns over lane l.
-/
import proofs.«408861_j29884382445937_3_alg».proof.Proof.Gen.KernelIdeal.Skeleton
import proofs.«408861_j29884382445937_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand.Payload

open Idealize.ShloMosaic Idealize.ShloMosaic.ValueIdx Cert.KernelIdeal.Gen

/-! ## The layout operations of the body, read at one lane -/

/-- Three rows cut from the 18-row block at row o: row j of the cut is row o + j of the block. -/
theorem cut_apply (x : Vec Ideal S18x32768 .f32) (o : Nat) (h : S18x32768.Slices ![o, 0] S3x32768)
    (j : Fin 3) (l : Fin 32768) (r : Fin 18) (hr : r.val = o + j.val) :
    extractStridedSlice S3x32768 ![o, 0] x h (ix2 j l) = x (ix2 r l) :=
  slice2_axis0_apply o x h j l r hr

/-- One row laid over three: every row of the result is the one row. -/
theorem spread_apply (v : FVec Ideal S1x32768 .f32) (h : S1x32768.Broadcasts S3x32768) (j : Fin 3) (l : Fin 32768) :
    broadcastTo S3x32768 v h (ix2 j l) = v (ix2 (0 : Fin 1) l) :=
  broadcastTo_1b_ab_apply v h j l

/-- A reciprocal square root at an index is the reciprocal square root of the element. -/
theorem rsqrt_apply {s : Shape} {φ : FTy} (a : FVec Ideal s φ) (i : s.Idx) : rsqrt a i = Ideal.rsqrt (a i) := rfl

/-- The index the sum over the rows inserts: row k over lane l. -/
theorem lift_eq (h : S3x32768.Reduces [0] S32768) (l : Fin 32768) (k : Fin 3) :
    h.lift (ix1 l) k = ix2 k l := by
  funext a
  match a with
  | ⟨0, _⟩ => rfl
  | ⟨1, _⟩ => rfl

/-- The product of two 3-row blocks summed over the rows, as a one-row block: at lane l the dot product of the two
    columns over l. -/
theorem dot_apply (v w : FVec Ideal S3x32768 .f32) (hφ : FKind.Formats .f32)
    (hacc : (0x00000000#32 : BitVec 32) = FKind.add.neutral .f32 hφ) (u : Fin 1) (l : Fin 32768)
    (A B : Fin 3 → EReal) (hv : ∀ k : Fin 3, v (ix2 k l) = A k) (hw : ∀ k : Fin 3, w (ix2 k l) = B k) :
    shapeCast S1x32768 (multiReduction (F := Ideal) .add [0] S32768 (mulf v w) 0x00000000#32 reduces_S3x32768_S32768 hφ hacc)
      shapeCasts_S32768_S1x32768 (ix2 u l) = Cert.Spec.dot A B := by
  refine (shapeCast_a_1a_apply _ _ u l).trans ?_
  refine (Ideal.multiReduction_add_single (mulf v w) _ reduces_S3x32768_S32768 hφ hacc (ix1 l)).trans ?_
  show ∑ k : Fin 3, mulf v w (reduces_S3x32768_S32768.lift (ix1 l) k) = ∑ k : Fin 3, A k * B k
  refine Finset.sum_congr rfl fun k _ => ?_
  refine (congrArg (mulf v w) (lift_eq reduces_S3x32768_S32768 l k)).trans ?_
  exact (mulf_apply v w _).trans (congrArg₂ (· * ·) (hv k) (hw k))

/-! ## The columns over one lane -/

/-- The triangle's three position rows and three feature rows over lane l, and the hit's position and normal there. -/
abbrev p0 (x0 : Vec Ideal S18x32768 .f32) (l : Fin 32768) : Fin 3 → EReal := fun a => x0 (ix2 ⟨a.val, by omega⟩ l)
abbrev f0 (x0 : Vec Ideal S18x32768 .f32) (l : Fin 32768) : Fin 3 → EReal := fun a => x0 (ix2 ⟨3 + a.val, by omega⟩ l)
abbrev p1 (x0 : Vec Ideal S18x32768 .f32) (l : Fin 32768) : Fin 3 → EReal := fun a => x0 (ix2 ⟨6 + a.val, by omega⟩ l)
abbrev f1 (x0 : Vec Ideal S18x32768 .f32) (l : Fin 32768) : Fin 3 → EReal := fun a => x0 (ix2 ⟨9 + a.val, by omega⟩ l)
abbrev p2 (x0 : Vec Ideal S18x32768 .f32) (l : Fin 32768) : Fin 3 → EReal := fun a => x0 (ix2 ⟨12 + a.val, by omega⟩ l)
abbrev f2 (x0 : Vec Ideal S18x32768 .f32) (l : Fin 32768) : Fin 3 → EReal := fun a => x0 (ix2 ⟨15 + a.val, by omega⟩ l)
abbrev hp (x1 : Vec Ideal S3x32768 .f32) (l : Fin 32768) : Fin 3 → EReal := fun a => x1 (ix2 a l)
abbrev hn (x2 : Vec Ideal S3x32768 .f32) (l : Fin 32768) : Fin 3 → EReal := fun a => x2 (ix2 a l)

/-! ## The rows the body cuts out -/

section Body
variable (x0 : Vec Ideal S18x32768 .f32) (x1 x2 : Vec Ideal S3x32768 .f32) (l : Fin 32768)

/-- The cast of the block to its own shape changes nothing. -/
theorem pay2_eq : k0_pay2 (F := Ideal) x0 = x0 := by
  unfold k0_pay2
  exact shapeCast_self x0 _

theorem pay6_eq : k0_pay6 (F := Ideal) x2 = x2 := by
  unfold k0_pay6
  exact shapeCast_self x2 _

/-- Rows 0 to 2: the first vertex' position. -/
theorem pay3_apply (j : Fin 3) : k0_pay3 (F := Ideal) x0 (ix2 j l) = p0 x0 l j := by
  unfold k0_pay3
  rw [pay2_eq]
  exact cut_apply x0 0 _ j l ⟨j.val, by omega⟩ (Nat.zero_add _).symm

/-- Rows 9 to 11: the second vertex' feature. -/
theorem pay4_apply (j : Fin 3) : k0_pay4 (F := Ideal) x0 (ix2 j l) = f1 x0 l j := by
  unfold k0_pay4
  rw [pay2_eq]
  exact cut_apply x0 9 _ j l ⟨9 + j.val, by omega⟩ rfl

/-- Rows 15 to 17: the third vertex' feature. -/
theorem pay5_apply (j : Fin 3) : k0_pay5 (F := Ideal) x0 (ix2 j l) = f2 x0 l j := by
  unfold k0_pay5
  rw [pay2_eq]
  exact cut_apply x0 15 _ j l ⟨15 + j.val, by omega⟩ rfl

/-! ## The edges and the five dot products -/

/-- e1 = p1 - p0. -/
theorem pay7_apply (j : Fin 3) : k0_pay7 (F := Ideal) x0 (ix2 j l) = Cert.Spec.e1 (p0 x0 l) (p1 x0 l) j := by
  unfold k0_pay7
  rw [pay2_eq]
  refine (subf_apply _ _ _).trans ?_
  exact congrArg₂ (· - ·) (cut_apply x0 6 _ j l ⟨6 + j.val, by omega⟩ rfl) (pay3_apply x0 l j)

/-- e2 = p2 - p0. -/
theorem pay8_apply (j : Fin 3) : k0_pay8 (F := Ideal) x0 (ix2 j l) = Cert.Spec.e2 (p0 x0 l) (p2 x0 l) j := by
  unfold k0_pay8
  rw [pay2_eq]
  refine (subf_apply _ _ _).trans ?_
  exact congrArg₂ (· - ·) (cut_apply x0 12 _ j l ⟨12 + j.val, by omega⟩ rfl) (pay3_apply x0 l j)

/-- pp = hit - p0. -/
theorem pay9_apply (j : Fin 3) : k0_pay9 (F := Ideal) x0 x1 (ix2 j l) = Cert.Spec.pp (p0 x0 l) (hp x1 l) j := by
  unfold k0_pay9
  rw [shapeCast_self x1]
  refine (subf_apply _ _ _).trans ?_
  exact congrArg₂ (· - ·) rfl (pay3_apply x0 l j)

/-- e1 . e1 -/
theorem pay10_apply (u : Fin 1) : k0_pay10 (F := Ideal) x0 (ix2 u l) = Cert.Spec.d00 (p0 x0 l) (p1 x0 l) := by
  unfold k0_pay10
  exact dot_apply _ _ _ _ u l _ _ (pay7_apply x0 l) (pay7_apply x0 l)

/-- e1 . e2 -/
theorem pay11_apply (u : Fin 1) : k0_pay11 (F := Ideal) x0 (ix2 u l) = Cert.Spec.d01 (p0 x0 l) (p1 x0 l) (p2 x0 l) := by
  unfold k0_pay11
  exact dot_apply _ _ _ _ u l _ _ (pay7_apply x0 l) (pay8_apply x0 l)

/-- e2 . e2 -/
theorem pay12_apply (u : Fin 1) : k0_pay12 (F := Ideal) x0 (ix2 u l) = Cert.Spec.d11 (p0 x0 l) (p2 x0 l) := by
  unfold k0_pay12
  exact dot_apply _ _ _ _ u l _ _ (pay8_apply x0 l) (pay8_apply x0 l)

/-- pp . e1 -/
theorem pay13_apply (u : Fin 1) : k0_pay13 (F := Ideal) x0 x1 (ix2 u l) = Cert.Spec.d20 (p0 x0 l) (p1 x0 l) (hp x1 l) := by
  unfold k0_pay13
  exact dot_apply _ _ _ _ u l _ _ (pay9_apply x0 x1 l) (pay7_apply x0 l)

/-- pp . e2 -/
theorem pay14_apply (u : Fin 1) : k0_pay14 (F := Ideal) x0 x1 (ix2 u l) = Cert.Spec.d21 (p0 x0 l) (p2 x0 l) (hp x1 l) := by
  unfold k0_pay14
  exact dot_apply _ _ _ _ u l _ _ (pay9_apply x0 x1 l) (pay8_apply x0 l)

/-! ## The Gram determinant and the barycentric weights -/

/-- d00 d11 - d01 d01 -/
theorem pay15_apply (u : Fin 1) : k0_pay15 (F := Ideal) x0 (ix2 u l) = Cert.Spec.denom (p0 x0 l) (p1 x0 l) (p2 x0 l) := by
  unfold k0_pay15
  refine (subf_apply _ _ _).trans ?_
  exact congrArg₂ (· - ·)
    ((mulf_apply _ _ _).trans (congrArg₂ (· * ·) (pay10_apply x0 l u) (pay12_apply x0 l u)))
    ((mulf_apply _ _ _).trans (congrArg₂ (· * ·) (pay11_apply x0 l u) (pay11_apply x0 l u)))

/-- bv = (d11 d20 - d01 d21) / denom -/
theorem pay16_apply (u : Fin 1) :
    k0_pay16 (F := Ideal) x0 x1 (ix2 u l) = Cert.Spec.bv (p0 x0 l) (p1 x0 l) (p2 x0 l) (hp x1 l) := by
  unfold k0_pay16
  refine (divf_apply _ _ _).trans ?_
  refine congrArg₂ Ideal.div ((subf_apply _ _ _).trans ?_) (pay15_apply x0 l u)
  exact congrArg₂ (· - ·)
    ((mulf_apply _ _ _).trans (congrArg₂ (· * ·) (pay12_apply x0 l u) (pay13_apply x0 x1 l u)))
    ((mulf_apply _ _ _).trans (congrArg₂ (· * ·) (pay11_apply x0 l u) (pay14_apply x0 x1 l u)))

/-- bw = (d00 d21 - d01 d20) / denom -/
theorem pay17_apply (u : Fin 1) :
    k0_pay17 (F := Ideal) x0 x1 (ix2 u l) = Cert.Spec.bw (p0 x0 l) (p1 x0 l) (p2 x0 l) (hp x1 l) := by
  unfold k0_pay17
  refine (divf_apply _ _ _).trans ?_
  refine congrArg₂ Ideal.div ((subf_apply _ _ _).trans ?_) (pay15_apply x0 l u)
  exact congrArg₂ (· - ·)
    ((mulf_apply _ _ _).trans (congrArg₂ (· * ·) (pay10_apply x0 l u) (pay14_apply x0 x1 l u)))
    ((mulf_apply _ _ _).trans (congrArg₂ (· * ·) (pay11_apply x0 l u) (pay13_apply x0 x1 l u)))

/-- bu f0, with bu = (1 - bv) - bw laid over the three rows -/
theorem pay18_apply (j : Fin 3) :
    k0_pay18 (F := Ideal) x0 x1 (ix2 j l) = Cert.Spec.bu (p0 x0 l) (p1 x0 l) (p2 x0 l) (hp x1 l) * f0 x0 l j := by
  unfold k0_pay18
  rw [pay2_eq]
  refine (mulf_apply _ _ _).trans ?_
  refine congrArg₂ (· * ·) ((spread_apply _ _ j l).trans ?_) (cut_apply x0 3 _ j l ⟨3 + j.val, by omega⟩ rfl)
  refine (subf_apply _ _ _).trans ?_
  refine congrArg₂ (· - ·) ((subf_apply _ _ _).trans ?_) (pay17_apply x0 x1 l 0)
  exact congrArg₂ (· - ·) rfl (pay16_apply x0 x1 l 0)

/-- bv laid over the three rows -/
theorem pay19_apply (j : Fin 3) :
    k0_pay19 (F := Ideal) x0 x1 (ix2 j l) = Cert.Spec.bv (p0 x0 l) (p1 x0 l) (p2 x0 l) (hp x1 l) := by
  unfold k0_pay19
  exact (spread_apply _ _ j l).trans (pay16_apply x0 x1 l 0)

end Body

/-! ## The stored value -/

/-- The blended normal at row k over lane l, from what its operands are there:
    hn + ((bu f0 + bv f1 + bw f2) 2 - 1) / 4, with bw read from its one row. -/
theorem blend_apply (v5 v7 v11 : FVec Ideal S3x32768 .f32) (v40 : FVec Ideal S1x32768 .f32) (v45 v46 : FVec Ideal S3x32768 .f32)
    (l : Fin 32768) (k : Fin 3) (a5 a7 a11 a40 a45 a46 : EReal)
    (h5 : v5 (ix2 k l) = a5) (h7 : v7 (ix2 k l) = a7) (h11 : v11 (ix2 k l) = a11)
    (h40 : v40 (ix2 (0 : Fin 1) l) = a40) (h45 : v45 (ix2 k l) = a45) (h46 : v46 (ix2 k l) = a46) :
    addf v11 (mulf (subf (mulf (addf (addf v45 (mulf v46 v5)) (mulf (broadcastTo S3x32768 v40 broadcasts_S1x32768_S3x32768) v7))
        (broadcast S3x32768 (FloatOps.ofBits (F := Ideal) .f32 0x40000000#32)))
        (broadcast S3x32768 (FloatOps.ofBits (F := Ideal) .f32 0x3F800000#32)))
        (broadcast S3x32768 (FloatOps.ofBits (F := Ideal) .f32 0x3E800000#32))) (ix2 k l)
      = a11 + ((a45 + a46 * a5 + a40 * a7) * Cert.Spec.two - Cert.Spec.one) * Cert.Spec.quarter := by
  show v11 (ix2 k l) + ((v45 (ix2 k l) + v46 (ix2 k l) * v5 (ix2 k l)
      + broadcastTo S3x32768 v40 broadcasts_S1x32768_S3x32768 (ix2 k l) * v7 (ix2 k l)) * Cert.Spec.two - Cert.Spec.one)
      * Cert.Spec.quarter = _
  refine congrArg₂ (· + ·) h11 (congrArg (· * Cert.Spec.quarter) (congrArg (· - Cert.Spec.one) (congrArg (· * Cert.Spec.two) ?_)))
  exact congrArg₂ (· + ·) (congrArg₂ (· + ·) h45 (congrArg₂ (· * ·) h46 h5))
    (congrArg₂ (· * ·) ((spread_apply v40 _ k l).trans h40) h7)

/-- A 3-row block scaled, lane by lane, by the reciprocal square root of its columns' squared lengths. -/
theorem unit_apply (V : FVec Ideal S3x32768 .f32) (hφ : FKind.Formats .f32)
    (hacc : (0x00000000#32 : BitVec 32) = FKind.add.neutral .f32 hφ) (l : Fin 32768) (B : Fin 3 → EReal)
    (hV : ∀ k : Fin 3, V (ix2 k l) = B k) (j : Fin 3) :
    mulf V (broadcastTo S3x32768 (rsqrt (shapeCast S1x32768
        (multiReduction (F := Ideal) .add [0] S32768 (mulf V V) 0x00000000#32 reduces_S3x32768_S32768 hφ hacc)
        shapeCasts_S32768_S1x32768)) broadcasts_S1x32768_S3x32768) (ix2 j l)
      = B j * Ideal.rsqrt (Cert.Spec.dot B B) := by
  refine (mulf_apply _ _ _).trans ?_
  refine congrArg₂ (· * ·) (hV j) ((spread_apply _ _ j l).trans ?_)
  refine (rsqrt_apply _ _).trans ?_
  exact congrArg Ideal.rsqrt (dot_apply V V hφ hacc 0 l B B hV hV)

/-- THE PAYLOAD AT ONE INDEX: what the body stores at row j, lane l is the blended normal of the hit in that lane,
    scaled to unit length by the reciprocal square root, computed from the lane's eight columns. -/
theorem payload_apply (x0 : Vec Ideal S18x32768 .f32) (x1 x2 : Vec Ideal S3x32768 .f32) (j : Fin 3) (l : Fin 32768) :
    k0_pay1 (F := Ideal) (k0_pay4 x0) (k0_pay5 x0) (k0_pay6 x2) (k0_pay17 x0 x1) (k0_pay18 x0 x1) (k0_pay19 x0 x1) (ix2 j l)
      = Cert.Spec.unitK (fun a => x0 (ix2 ⟨a.val, by omega⟩ l)) (fun a => x0 (ix2 ⟨3 + a.val, by omega⟩ l))
          (fun a => x0 (ix2 ⟨6 + a.val, by omega⟩ l)) (fun a => x0 (ix2 ⟨9 + a.val, by omega⟩ l))
          (fun a => x0 (ix2 ⟨12 + a.val, by omega⟩ l)) (fun a => x0 (ix2 ⟨15 + a.val, by omega⟩ l))
          (fun a => x1 (ix2 a l)) (fun a => x2 (ix2 a l)) j := by
  unfold k0_pay1
  refine unit_apply _ _ _ l
    (Cert.Spec.blend (p0 x0 l) (f0 x0 l) (p1 x0 l) (f1 x0 l) (p2 x0 l) (f2 x0 l) (hp x1 l) (hn x2 l)) (fun k => ?_) j
  exact blend_apply _ _ _ _ _ _ l k _ _ _ _ _ _ (pay4_apply x0 l k) (pay5_apply x0 l k) (congrFun (pay6_eq x2) _)
    (pay17_apply x0 x1 l 0) (pay18_apply x0 x1 l k) (pay19_apply x0 x1 l k)

end Cert.KernelIdeal.Hand.Payload

end
-- ==== Proof.LibGather.lean ====
/-
  A row gather read at an index.

  What table[idx] of a two-axis table [R, K] at an integer array idx computes: a gather whose slice is one whole
  row (slice sizes [1, K]). Axis 0 of the table is collapsed and is the one axis the start index map names; axis 1 is
  an offset axis, the last axis of the result. The start indices carry a trailing axis of extent 1, the index
  vector's. Result element (m, k) (or (m, a, k) over a two-axis array of indices) is the table at row
  i and lane k, where i is the start index read as a signed integer and clamped into [0, R - 1] (the table's
  extent minus the slice's, on axis 0); on axis 1 nothing is named by the start index map, so the slice starts at 0
  and the offset coordinate is k itself.
-/
import Idealize.ShloMosaic.PureOps
import Idealize.ShloMosaic.Lib.ValueIdx

namespace Idealize.ShloMosaic.RowGather

open Idealize.ShloMosaic Idealize.ShloMosaic.ValueIdx

variable {α : Type}

/-! ## Start indices [M, 1], result [M, K] -/

/-- The dimension numbers of a row gather from a table [R, K] at start indices [M, 1] into a result [M, K]:
    offset axis 1 of the result, axis 0 of the table collapsed and named by the start index map, the index vector on
    axis 1 of the start indices, slices of one row. Their conditions wf are decided on a program's literal shapes. -/
abbrev rowDims (R K M : Nat)
    (wf : GatherDims.WF ⟨2, ![R, K]⟩ ⟨2, ![M, 1]⟩ ⟨2, ![M, K]⟩ [1] [0] [] [0] [] 1 ![1, K]) :
    GatherDims ⟨2, ![R, K]⟩ ⟨2, ![M, 1]⟩ ⟨2, ![M, K]⟩ where
  offsetDims := [1]
  collapsedSliceDims := [0]
  operandBatchingDims := []
  startIndicesBatchingDims := []
  startIndexMap := [0]
  indexVectorDim := 1
  sliceSizes := ![1, K]
  wf := wf

/-- THE ROW GATHER READ AT (m, k): the table at row idx[m, 0], read signed and clamped into [0, R - 1], and
    lane k. -/
theorem gather_rows_apply {R K M w : Nat} (hR : 0 < R)
    (wf : GatherDims.WF ⟨2, ![R, K]⟩ ⟨2, ![M, 1]⟩ ⟨2, ![M, K]⟩ [1] [0] [] [0] [] 1 ![1, K])
    (x : (⟨2, ![R, K]⟩ : Shape).Idx → α) (idx : IVec ⟨2, ![M, 1]⟩ w) (m : Fin M) (k : Fin K) :
    Host.gather (rowDims R K M wf) x idx (ix2 m k)
      = x (ix2 ⟨min (idx (ix2 m (0 : Fin 1))).toInt.toNat (R - 1), by omega⟩ k) := by
  unfold Host.gather
  congr 1
  funext a
  refine Fin.ext ?_
  match a with
  | ⟨0, _⟩ =>
    -- the collapsed axis: no batching and no offset coordinate, the start is the clamped index
    show (rowDims R K M wf).start (ix2 m k) idx 0 + (rowDims R K M wf).batchCoord (ix2 m k) 0
      + (rowDims R K M wf).offCoord (ix2 m k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims R K M wf).startIndexMap from List.mem_singleton.mpr rfl)]
    have hsi : (rowDims R K M wf).siIdx (ix2 m k) ⟨List.idxOf (0 : Fin 2) (rowDims R K M wf).startIndexMap,
        List.idxOf_lt_length_iff.2 (List.mem_singleton.mpr rfl)⟩ = ix2 m (0 : Fin 1) := by
      funext b; refine Fin.ext ?_
      match b with
      | ⟨0, _⟩ => rfl
      | ⟨1, _⟩ => rfl
    rw [hsi]
    rfl
  | ⟨1, _⟩ =>
    -- the offset axis: the start index map does not name it, so the slice starts at 0 and the coordinate is k
    show (rowDims R K M wf).start (ix2 m k) idx 1 + (rowDims R K M wf).batchCoord (ix2 m k) 1
      + (rowDims R K M wf).offCoord (ix2 m k) 1 = k.val
    rw [GatherDims.batchCoord_eq_zero _ _ _ List.not_mem_nil]
    have hst : (rowDims R K M wf).start (ix2 m k) idx 1 = 0 := by
      unfold GatherDims.start
      rw [dif_neg (show (1 : Fin 2) ∉ ([0] : List (Fin 2)) from by decide)]
    have hk : (1 : Fin 2) ∈ (rowDims R K M wf).sKept :=
      (GatherDims.mem_sKept _ _).mpr ⟨show (1 : Fin 2) ∉ ([0] : List (Fin 2)) from by decide, List.not_mem_nil⟩
    have hoff : (rowDims R K M wf).offCoord (ix2 m k) 1 = k.val := by
      unfold GatherDims.offCoord
      rw [dif_pos hk]
      rfl
    rw [hst, hoff, Nat.add_zero, Nat.zero_add]

/-! ## Start indices [M, A, 1], result [M, A, K] -/

/-- The dimension numbers of a row gather from a table [R, K] at start indices [M, A, 1] into a result [M, A, K]:
    offset axis 2 of the result, axis 0 of the table collapsed and named by the start index map, the index vector on
    axis 2 of the start indices, slices of one row. Their conditions wf are decided on a program's literal shapes. -/
abbrev rowDims3 (R K M A : Nat)
    (wf : GatherDims.WF ⟨2, ![R, K]⟩ ⟨3, ![M, A, 1]⟩ ⟨3, ![M, A, K]⟩ [2] [0] [] [0] [] 2 ![1, K]) :
    GatherDims ⟨2, ![R, K]⟩ ⟨3, ![M, A, 1]⟩ ⟨3, ![M, A, K]⟩ where
  offsetDims := [2]
  collapsedSliceDims := [0]
  operandBatchingDims := []
  startIndicesBatchingDims := []
  startIndexMap := [0]
  indexVectorDim := 2
  sliceSizes := ![1, K]
  wf := wf

/-- THE ROW GATHER READ AT (m, a, k): the table at row idx[m, a, 0], read signed and clamped into [0, R - 1], and
    lane k. -/
theorem gather_rows3_apply {R K M A w : Nat} (hR : 0 < R)
    (wf : GatherDims.WF ⟨2, ![R, K]⟩ ⟨3, ![M, A, 1]⟩ ⟨3, ![M, A, K]⟩ [2] [0] [] [0] [] 2 ![1, K])
    (x : (⟨2, ![R, K]⟩ : Shape).Idx → α) (idx : IVec ⟨3, ![M, A, 1]⟩ w) (m : Fin M) (a : Fin A) (k : Fin K) :
    Host.gather (rowDims3 R K M A wf) x idx (ix3 m a k)
      = x (ix2 ⟨min (idx (ix3 m a (0 : Fin 1))).toInt.toNat (R - 1), by omega⟩ k) := by
  unfold Host.gather
  congr 1
  funext c
  refine Fin.ext ?_
  match c with
  | ⟨0, _⟩ =>
    -- the collapsed axis: no batching and no offset coordinate, the start is the clamped index
    show (rowDims3 R K M A wf).start (ix3 m a k) idx 0 + (rowDims3 R K M A wf).batchCoord (ix3 m a k) 0
      + (rowDims3 R K M A wf).offCoord (ix3 m a k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims3 R K M A wf).startIndexMap from List.mem_singleton.mpr rfl)]
    have hsi : (rowDims3 R K M A wf).siIdx (ix3 m a k) ⟨List.idxOf (0 : Fin 2) (rowDims3 R K M A wf).startIndexMap,
        List.idxOf_lt_length_iff.2 (List.mem_singleton.mpr rfl)⟩ = ix3 m a (0 : Fin 1) := by
      funext b; refine Fin.ext ?_
      match b with
      | ⟨0, _⟩ => rfl
      | ⟨1, _⟩ => rfl
      | ⟨2, _⟩ => rfl
    rw [hsi]
    rfl
  | ⟨1, _⟩ =>
    -- the offset axis: the start index map does not name it, so the slice starts at 0 and the coordinate is k
    show (rowDims3 R K M A wf).start (ix3 m a k) idx 1 + (rowDims3 R K M A wf).batchCoord (ix3 m a k) 1
      + (rowDims3 R K M A wf).offCoord (ix3 m a k) 1 = k.val
    rw [GatherDims.batchCoord_eq_zero _ _ _ List.not_mem_nil]
    have hst : (rowDims3 R K M A wf).start (ix3 m a k) idx 1 = 0 := by
      unfold GatherDims.start
      rw [dif_neg (show (1 : Fin 2) ∉ ([0] : List (Fin 2)) from by decide)]
    have hk : (1 : Fin 2) ∈ (rowDims3 R K M A wf).sKept :=
      (GatherDims.mem_sKept _ _).mpr ⟨show (1 : Fin 2) ∉ ([0] : List (Fin 2)) from by decide, List.not_mem_nil⟩
    have hoff : (rowDims3 R K M A wf).offCoord (ix3 m a k) 1 = k.val := by
      unfold GatherDims.offCoord
      rw [dif_pos hk]
      rfl
    rw [hst, hoff, Nat.add_zero, Nat.zero_add]

end Idealize.ShloMosaic.RowGather
-- ==== Proof.LibNary3.lean ====
/-
  The result of an operation over a literal family of THREE references.

  A three-operand operation (a concatenation of three arrays along one axis) is stated over the family
  ![x, a, b] of its operands' references. After it has run, its result buffer holds its function applied to the
  family of the operands' contents; this lemma spells that family with each operand's contents at its own
  reference — Fin.cons (F x) (Fin.cons (F a) (Fin.cons (F b) _)) in place of fun k => F (![x, a, b] k) — so that
  each operand's contents can be rewritten further by the result lemmas of the operations that made them: under
  the binder k the reference ![x, a, b] k is no literal, and no result lemma applies to it.
-/
import Idealize.ShloMosaic.Lib.StableHlo.Run

namespace Idealize.ShloMosaic.StableHlo

variable {τ : Topo} {sig : RefSig} {Val : EltTy → Type}
variable {x a b y : Ref sig .tc}

/-- An operation over the literal family ![x, a, b] leaves at its result reference its function applied to the
    three operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- One reference's contents after a line of operations with at most three operands each, a three-reference
    family among them: an operation's result at its own reference is its function of the operands' contents
    (the family's by nary3_result), at any other reference what was there before it ran. -/
macro "after_results3" : tactic =>
  `(tactic| (simp only [after_cons, after_nil]
             repeat (first
               | rw [nary3_result]
               | (rw [nary_result_ne]; rotate_left; decide)
               | rw [binary_result]
               | (rw [binary_result_ne]; rotate_left; decide)
               | rw [unary_result]
               | (rw [unary_result_ne]; rotate_left; decide)
               | rw [nullary_result]
               | (rw [nullary_result_ne]; rotate_left; decide)
               | rw [ternary_result]
               | (rw [ternary_result_ne]; rotate_left; decide)
               | rw [reshape_result]
               | (rw [reshape_result_ne]; rotate_left; decide))))

end Idealize.ShloMosaic.StableHlo
-- ==== Proof.KHost.lean ====
/-
  What the region finds in the gathered array when it is entered, read at one index.

  Before its region the program builds, from the vertex positions vbo and features feat (both [500000, 3]), the
  index buffer ibo ([1000000, 3]) and the hits' triangle ids prim ([2000000]), one array of eighteen long lanes:

    vf  = vbo beside feat                                   [500000, 6]
    T_k = vf gathered at column k of ibo (k = 0, 1, 2)      [1000000, 6]   (a negative index has 500000 added,
                                                                            the start index is clamped into the table)
    C   = T_0 beside T_1 beside T_2                         [1000000, 18]
    H   = C gathered at prim                                [2000000, 18]  (a negative id has 1000000 added, clamped)
    G   = H transposed, 31616 columns of padding appended   [18, 2031616]

  So column h of G (h below 2000000) is hit h's eighteen numbers: for k = 0, 1, 2, lanes 6 k .. 6 k + 2 are the
  position of the k-th vertex of the triangle the hit names, lanes 6 k + 3 .. 6 k + 5 that vertex' feature, the
  triangle and the vertex read off prim and ibo exactly as the specification's tri and vtx read them
  (wrap, then row). row18 names that column; its six projections give the six three-vectors back.

  The proof reads the composed term one operation at a time, outermost first: a pad inside the operand is the
  operand, a transpose swaps the coordinates, a row gather reads the row its clamped start index names, a
  concatenation reads the piece whose span holds the lane, a broadcast along a new unit axis reads the flat
  array, select / compare / add act entry by entry, a reshape of [n, 1] to [n] keeps the row-major position, a
  slice shifts the lane by its offset. The composed term itself is what the operations leave in the buffer:
  the operations are run in two parts, the part up to the three tables and the part from their concatenation on,
  and each part's result is computed from the operations' own result equations.
-/
import proofs.«408861_j29884382445937_3_alg».proof.Proof.Gen.KernelIdeal.Launch
import proofs.«408861_j29884382445937_3_alg».proof.Proof.Spec
import proofs.«408861_j29884382445937_3_alg».proof.Proof.LibGather
import proofs.«408861_j29884382445937_3_alg».proof.Proof.LibNary3
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.Hand.Host

open Idealize.ShloMosaic Idealize.ShloMosaic.ValueIdx Idealize.ShloMosaic.StableHlo Idealize.ShloMosaic.RowGather
open Cert.KernelIdeal Cert.KernelIdeal.Gen

/-! ## The vertex table: positions beside features -/

/-- The two vertex arrays side by side: row v is (position of v, feature of v), six lanes. -/
def vfT (vbo feat : Vec Ideal S500000x3 .f32) : Vec Ideal S500000x6 .f32 :=
  concatenate S500000x6 1 [⟨S500000x3, vbo⟩, ⟨S500000x3, feat⟩] concatenates_S500000x3_S500000x3_S500000x6_d1

/-- Its first three lanes are the position row. -/
theorem vfT_lo (vbo feat : Vec Ideal S500000x3 .f32) (v : Fin 500000) (q : Fin 6) (hq : q.val < 3) :
    vfT vbo feat (ix2 v q) = vbo (ix2 v ⟨q.val, hq⟩) :=
  concatenate_pair_apply_left 1 vbo feat _ (ix2 v q) rfl (ix2 v ⟨q.val, hq⟩)
    (fun b => match b with | ⟨0, _⟩ => rfl | ⟨1, _⟩ => rfl)

/-- Its last three lanes are the feature row. -/
theorem vfT_hi (vbo feat : Vec Ideal S500000x3 .f32) (v : Fin 500000) (q : Fin 6) (hq : 3 ≤ q.val) :
    vfT vbo feat (ix2 v q) = feat (ix2 v ⟨q.val - 3, by omega⟩) :=
  concatenate_pair_apply_right 1 vbo feat _ (ix2 v q) rfl rfl (ix2 v ⟨q.val - 3, by omega⟩)
    (fun b => match b with | ⟨0, _⟩ => fun _ => rfl | ⟨1, _⟩ => fun h => absurd (Fin.ext rfl) h)
    (by show q.val - 3 + 3 = q.val; omega)

/-! ## One column of the index buffer, made non-negative -/

/-- Column k of the index buffer as a flat array. -/
def colX (ibo : IVec S1000000x3 32) (k : Nat) (hs : S1000000x3.Slices ![0, k] S1000000x1) : IVec S1000000 32 :=
  shapeCast S1000000 (extractStridedSlice S1000000x1 ![0, k] ibo hs) shapeCasts_S1000000x1_S1000000

theorem colX_apply (ibo : IVec S1000000x3 32) (k : Fin 3) (hs : S1000000x3.Slices ![0, k.val] S1000000x1) (t : Fin 1000000) :
    colX ibo k.val hs (ix1 t) = ibo (ix2 t k) := by
  unfold colX
  rw [shapeCast_apply _ _ (ix1 t) (ix2 t (0 : Fin 1)) (by
    rw [Shape.rowMajor_val_two, Shape.rowMajor_val_one]; show t.val * 1 + 0 = t.val; omega)]
  exact slice2_axis1_apply k.val ibo hs t 0 k (by show k.val = k.val + 0; omega)

/-- The column with the vertex count added to its negative entries, as a one-lane table of start indices. -/
def colT (ibo : IVec S1000000x3 32) (k : Nat) (hs : S1000000x3.Slices ![0, k] S1000000x1) : IVec S1000000x1 32 :=
  broadcastInDim S1000000x1 ![0] bcast_S1000000_S1000000x1_0
    (select (cmpi .slt (colX ibo k hs) (broadcastInDim S1000000 ![] bcast_S_S1000000 (constantI S_ 32 0#32)))
      (addi (colX ibo k hs) (broadcastInDim S1000000 ![] bcast_S_S1000000 (constantI S_ 32 500000#32)))
      (colX ibo k hs))

theorem colT_apply (ibo : IVec S1000000x3 32) (k : Fin 3) (hs : S1000000x3.Slices ![0, k.val] S1000000x1) (t : Fin 1000000) :
    colT ibo k.val hs (ix2 t (0 : Fin 1)) = Cert.Spec.wrap 500000#32 (ibo (ix2 t k)) := by
  unfold colT
  rw [broadcastInDim_apply _ _ _ (ix2 t (0 : Fin 1)) (ix1 t) (fun a => match a with | ⟨0, _⟩ => (if_neg (show ¬ ((1000000 : Nat) = 1) from by decide)).symm)]
  show Scalar.select (IntOp.cmpi .slt (colX ibo k.val hs (ix1 t)) 0#32) (IntOp.addi (colX ibo k.val hs (ix1 t)) 500000#32)
    (colX ibo k.val hs (ix1 t)) = _
  rw [colX_apply]
  rfl

/-! ## The vertex table gathered at one column -/

/-- The rows of the vertex table the triangles' k-th vertices name. -/
def tabT (vbo feat : Vec Ideal S500000x3 .f32) (ibo : IVec S1000000x3 32) (k : Nat) (hs : S1000000x3.Slices ![0, k] S1000000x1) :
    Vec Ideal S1000000x6 .f32 :=
  Host.gather gather_S500000x6_S1000000x1_S1000000x6_1_0_n_n_0_1_16 (vfT vbo feat) (colT ibo k hs)

theorem tabT_apply (vbo feat : Vec Ideal S500000x3 .f32) (ibo : IVec S1000000x3 32) (k : Fin 3)
    (hs : S1000000x3.Slices ![0, k.val] S1000000x1) (t : Fin 1000000) (q : Fin 6) :
    tabT vbo feat ibo k.val hs (ix2 t q)
      = vfT vbo feat (ix2 (Cert.Spec.row 500000 (by decide) (Cert.Spec.wrap 500000#32 (ibo (ix2 t k)))) q) := by
  unfold tabT
  exact (show Host.gather gather_S500000x6_S1000000x1_S1000000x6_1_0_n_n_0_1_16 (vfT vbo feat) (colT ibo k.val hs) (ix2 t q) = _
    from gather_rows_apply (by decide) _ (vfT vbo feat) (colT ibo k.val hs) t q).trans
    (congrArg (fun w => vfT vbo feat (ix2 (Cert.Spec.row 500000 (by decide) w) q)) (colT_apply ibo k hs t))

/-! ## The three gathered tables side by side -/

/-- Row t: the three vertices of triangle t, each with position and feature: eighteen lanes. -/
def catT (vbo feat : Vec Ideal S500000x3 .f32) (ibo : IVec S1000000x3 32) : Vec Ideal S1000000x18 .f32 :=
  concatenate S1000000x18 1
    [⟨S1000000x6, tabT vbo feat ibo 0 slices_S1000000x3_S1000000x1_0_0⟩,
     ⟨S1000000x6, tabT vbo feat ibo 1 slices_S1000000x3_S1000000x1_0_1⟩,
     ⟨S1000000x6, tabT vbo feat ibo 2 slices_S1000000x3_S1000000x1_0_2⟩]
    concatenates_S1000000x6_S1000000x6_S1000000x6_S1000000x18_d1

/-- Lane 6 k + q of row t is lane q of the vertex table's row for the k-th vertex of triangle t. -/
theorem catT_apply (vbo feat : Vec Ideal S500000x3 .f32) (ibo : IVec S1000000x3 32) (t : Fin 1000000) (r : Fin 18)
    (k : Fin 3) (q : Fin 6) (hr : r.val = 6 * k.val + q.val) :
    catT vbo feat ibo (ix2 t r)
      = vfT vbo feat (ix2 (Cert.Spec.row 500000 (by decide) (Cert.Spec.wrap 500000#32 (ibo (ix2 t k)))) q) := by
  unfold catT
  have hi : ∀ b : Fin S1000000x6.rank, b.cast (rfl : S1000000x6.rank = S1000000x18.rank) ≠ 1 →
      ((ix2 t q : S1000000x6.Idx) b).val = ((ix2 t r : S1000000x18.Idx) (b.cast rfl)).val :=
    fun b => match b with | ⟨0, _⟩ => fun _ => rfl | ⟨1, _⟩ => fun h => absurd (Fin.ext rfl) h
  rcases k with ⟨kv, hkv⟩
  have hr' : r.val = 6 * kv + q.val := hr
  have hk3 : kv = 0 ∨ kv = 1 ∨ kv = 2 := by omega
  rcases hk3 with rfl | rfl | rfl
  · exact (concatenate_apply_piece 1 _ _ (ix2 t r) 0 (by show (0 : Nat) < 3; omega) S1000000x6 _ rfl rfl 0 rfl (ix2 t q) hi
      (by show 0 + q.val = r.val; omega)).trans (tabT_apply vbo feat ibo ⟨0, hkv⟩ _ t q)
  · exact (concatenate_apply_piece 1 _ _ (ix2 t r) 1 (by show (1 : Nat) < 3; omega) S1000000x6 _ rfl rfl 6 rfl (ix2 t q) hi
      (by show 6 + q.val = r.val; omega)).trans (tabT_apply vbo feat ibo ⟨1, hkv⟩ _ t q)
  · exact (concatenate_apply_piece 1 _ _ (ix2 t r) 2 (by show (2 : Nat) < 3; omega) S1000000x6 _ rfl rfl 12 rfl (ix2 t q) hi
      (by show 12 + q.val = r.val; omega)).trans (tabT_apply vbo feat ibo ⟨2, hkv⟩ _ t q)

/-! ## The hits' triangle ids, made non-negative, and the gather of the triangles' rows -/

/-- The triangle ids with the triangle count added to the negative ones, as a one-lane table of start indices. -/
def primT (prim : IVec S2000000 32) : IVec S2000000x1 32 :=
  broadcastInDim S2000000x1 ![0] bcast_S2000000_S2000000x1_0
    (select (cmpi .slt prim (broadcastInDim S2000000 ![] bcast_S_S2000000 (constantI S_ 32 0#32)))
      (addi prim (broadcastInDim S2000000 ![] bcast_S_S2000000 (constantI S_ 32 1000000#32)))
      prim)

theorem primT_apply (prim : IVec S2000000 32) (h : Fin 2000000) :
    primT prim (ix2 h (0 : Fin 1)) = Cert.Spec.wrap 1000000#32 (prim (ix1 h)) := by
  unfold primT
  rw [broadcastInDim_apply _ _ _ (ix2 h (0 : Fin 1)) (ix1 h)
    (fun a => match a with | ⟨0, _⟩ => (if_neg (show ¬ ((2000000 : Nat) = 1) from by decide)).symm)]
  rfl

/-- Row h: the eighteen lanes of the triangle hit h names. -/
def hitT (prim : IVec S2000000 32) (vbo feat : Vec Ideal S500000x3 .f32) (ibo : IVec S1000000x3 32) : Vec Ideal S2000000x18 .f32 :=
  Host.gather gather_S1000000x18_S2000000x1_S2000000x18_1_0_n_n_0_1_118 (catT vbo feat ibo) (primT prim)

theorem hitT_apply (prim : IVec S2000000 32) (vbo feat : Vec Ideal S500000x3 .f32) (ibo : IVec S1000000x3 32)
    (h : Fin 2000000) (r : Fin 18) (k : Fin 3) (q : Fin 6) (hr : r.val = 6 * k.val + q.val) :
    hitT prim vbo feat ibo (ix2 h r) = vfT vbo feat (ix2 (Cert.Spec.vtx prim ibo h k) q) := by
  unfold hitT
  exact (show Host.gather gather_S1000000x18_S2000000x1_S2000000x18_1_0_n_n_0_1_118 (catT vbo feat ibo) (primT prim) (ix2 h r) = _
    from gather_rows_apply (by decide) _ (catT vbo feat ibo) (primT prim) h r).trans
    ((congrArg (fun w => catT vbo feat ibo (ix2 (Cert.Spec.row 1000000 (by decide) w) r)) (primT_apply prim h)).trans
      (catT_apply vbo feat ibo _ r k q hr))

/-! ## Transposed, and padded on the right -/

/-- The gathered rows as eighteen long lanes, 31616 columns of padding after the hits. -/
def v39T (prim : IVec S2000000 32) (vbo feat : Vec Ideal S500000x3 .f32) (ibo : IVec S1000000x3 32) : Vec Ideal S18x2031616 .f32 :=
  pad S18x2031616 ![0, 0] ![0, 31616] ![0, 0]
    (transpose S18x2000000 [1, 0] (hitT prim vbo feat ibo) transposes_S2000000x18_S18x2000000_1_0)
    (sitofp (F := Ideal) .f32 (constantI S_ 32 0#32)) pads_S18x2000000_S18x2031616_000_0316160 h_S_

theorem v39T_apply (prim : IVec S2000000 32) (vbo feat : Vec Ideal S500000x3 .f32) (ibo : IVec S1000000x3 32)
    (r : Fin 18) (h : Fin 2000000) (col : Fin 2031616) (hc : col.val = h.val) (k : Fin 3) (q : Fin 6) (hr : r.val = 6 * k.val + q.val) :
    v39T prim vbo feat ibo (ix2 r col) = vfT vbo feat (ix2 (Cert.Spec.vtx prim ibo h k) q) := by
  unfold v39T
  rw [pad_apply_of_inside _ _ _ _ _ _ h_S_ (ix2 r col) (ix2 r h) (fun a => match a with
    | ⟨0, _⟩ => by show r.val = 0 + r.val * (0 + 1); omega
    | ⟨1, _⟩ => by show col.val = 0 + h.val * (0 + 1); omega)]
  rw [transpose_ix2_apply]
  exact hitT_apply prim vbo feat ibo h r k q hr

/-- A hits-by-three array as three long lanes, padded alike. -/
def padT3 (x : Vec Ideal S2000000x3 .f32) : Vec Ideal S3x2031616 .f32 :=
  pad S3x2031616 ![0, 0] ![0, 31616] ![0, 0]
    (transpose S3x2000000 [1, 0] x transposes_S2000000x3_S3x2000000_1_0)
    (sitofp (F := Ideal) .f32 (constantI S_ 32 0#32)) pads_S3x2000000_S3x2031616_000_0316160 h_S_

theorem padT3_apply (x : Vec Ideal S2000000x3 .f32) (j : Fin 3) (h : Fin 2000000) (col : Fin 2031616) (hc : col.val = h.val) :
    padT3 x (ix2 j col) = x (ix2 h j) := by
  unfold padT3
  rw [pad_apply_of_inside _ _ _ _ _ _ h_S_ (ix2 j col) (ix2 j h) (fun a => match a with
    | ⟨0, _⟩ => by show j.val = 0 + j.val * (0 + 1); omega
    | ⟨1, _⟩ => by show col.val = 0 + h.val * (0 + 1); omega)]
  exact transpose_ix2_apply x _ j h

/-! ## The eighteen lanes of one hit -/

/-- Lane r of hit h: lanes 6 k .. 6 k + 2 are the position of the triangle's k-th vertex, lanes 6 k + 3 .. 6 k + 5
    its feature. -/
def row18 (prim : Cert.Spec.SH.Idx → BitVec 32) (vbo feat : Cert.Spec.SV3.Idx → EReal) (ibo : Cert.Spec.ST3.Idx → BitVec 32)
    (h : Fin 2000000) (r : Fin 18) : EReal :=
  if hq : r.val % 6 < 3 then Cert.Spec.pv prim vbo ibo h ⟨r.val / 6, by omega⟩ ⟨r.val % 6, hq⟩
  else Cert.Spec.fv prim feat ibo h ⟨r.val / 6, by omega⟩ ⟨r.val % 6 - 3, by omega⟩

section Row18
variable (prim : Cert.Spec.SH.Idx → BitVec 32) (vbo feat : Cert.Spec.SV3.Idx → EReal) (ibo : Cert.Spec.ST3.Idx → BitVec 32)
  (h : Fin 2000000)

theorem row18_p0 : (fun a : Fin 3 => row18 prim vbo feat ibo h ⟨a.val, by omega⟩) = Cert.Spec.pv prim vbo ibo h 0 := by
  funext a; fin_cases a <;> rfl
theorem row18_f0 : (fun a : Fin 3 => row18 prim vbo feat ibo h ⟨3 + a.val, by omega⟩) = Cert.Spec.fv prim feat ibo h 0 := by
  funext a; fin_cases a <;> rfl
theorem row18_p1 : (fun a : Fin 3 => row18 prim vbo feat ibo h ⟨6 + a.val, by omega⟩) = Cert.Spec.pv prim vbo ibo h 1 := by
  funext a; fin_cases a <;> rfl
theorem row18_f1 : (fun a : Fin 3 => row18 prim vbo feat ibo h ⟨9 + a.val, by omega⟩) = Cert.Spec.fv prim feat ibo h 1 := by
  funext a; fin_cases a <;> rfl
theorem row18_p2 : (fun a : Fin 3 => row18 prim vbo feat ibo h ⟨12 + a.val, by omega⟩) = Cert.Spec.pv prim vbo ibo h 2 := by
  funext a; fin_cases a <;> rfl
theorem row18_f2 : (fun a : Fin 3 => row18 prim vbo feat ibo h ⟨15 + a.val, by omega⟩) = Cert.Spec.fv prim feat ibo h 2 := by
  funext a; fin_cases a <;> rfl

/-- The padded, transposed, gathered array at a hit's column is that hit's lane. -/
theorem v39T_row18 (r : Fin 18) (col : Fin 2031616) (hc : col.val = h.val) :
    v39T prim vbo feat ibo (ix2 r col) = row18 prim vbo feat ibo h r := by
  rw [v39T_apply prim vbo feat ibo r h col hc ⟨r.val / 6, by omega⟩ ⟨r.val % 6, by omega⟩ (by show r.val = 6 * (r.val / 6) + r.val % 6; omega)]
  unfold row18
  split
  · next hq => rw [vfT_lo _ _ _ _ hq]; rfl
  · next hq => rw [vfT_hi _ _ _ _ (by show 3 ≤ r.val % 6; omega)]; rfl

end Row18

/-! ## The arrays the region's windows stage, as the host operations leave them -/

section Entry
variable (m : (ℓ : Loc nD τ sig) → Buf (Elt Ideal) ℓ) (c : Dev nD)

/-- A line of operations run in two parts. -/
theorem after_app : ∀ (l₁ l₂ : List (HloOp τ sig (Elt Ideal))) (V : Valuation τ sig (Elt Ideal)),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-- The buffers after the operations that come before the three tables are put side by side. -/
abbrev W1 : Valuation τ sig (Elt Ideal) := StableHlo.after (List.take 34 (hostOps0 (F := Ideal))) (fun b => m (c, b))

/-- The operations from there on to the region. -/
abbrev tailOps : List (HloOp τ sig (Elt Ideal)) :=
  List.drop 34 (hostOps0 (F := Ideal)) ++ (hostOps0_1 ++ (hostOps0_2 ++ (hostOps0_3 ++ (hostOps0_4 ++ hostOps0_5))))

theorem W0_split :
    StableHlo.after (List.flatten [hostOps0 (F := Ideal), hostOps0_1, hostOps0_2, hostOps0_3, hostOps0_4, hostOps0_5]) (fun b => m (c, b))
      = StableHlo.after tailOps (W1 m c) := by
  unfold tailOps W1
  rw [← after_app, ← List.append_assoc, List.take_append_drop]
  simp only [List.flatten_cons, List.flatten_nil, List.append_nil]

theorem W1_v9 : (W1 m c (Proc.devRef .tc main_v9) : S1000000x6.Idx → EReal)
    = tabT (m (c, Proc.devRef .tc main_arg3)) (m (c, Proc.devRef .tc main_arg5)) (m (c, Proc.devRef .tc main_arg4)) 0 slices_S1000000x3_S1000000x1_0_0 := by
  unfold W1
  simp only [Gen.hostOps0, List.take_succ_cons, List.take_zero]
  after_results_simp
  rfl

theorem W1_v18 : (W1 m c (Proc.devRef .tc main_v18) : S1000000x6.Idx → EReal)
    = tabT (m (c, Proc.devRef .tc main_arg3)) (m (c, Proc.devRef .tc main_arg5)) (m (c, Proc.devRef .tc main_arg4)) 1 slices_S1000000x3_S1000000x1_0_1 := by
  unfold W1
  simp only [Gen.hostOps0, List.take_succ_cons, List.take_zero]
  after_results_simp
  rfl

theorem W1_v27 : (W1 m c (Proc.devRef .tc main_v27) : S1000000x6.Idx → EReal)
    = tabT (m (c, Proc.devRef .tc main_arg3)) (m (c, Proc.devRef .tc main_arg5)) (m (c, Proc.devRef .tc main_arg4)) 2 slices_S1000000x3_S1000000x1_0_2 := by
  unfold W1
  simp only [Gen.hostOps0, List.take_succ_cons, List.take_zero]
  after_results_simp
  rfl

theorem W1_arg (r : Ref sig .tc) (hr : r = main_arg0 ∨ r = main_arg1 ∨ r = main_arg2) :
    W1 m c (Proc.devRef .tc r) = m (c, Proc.devRef .tc r) := by
  unfold W1
  simp only [Gen.hostOps0, List.take_succ_cons, List.take_zero]
  rcases hr with rfl | rfl | rfl <;> after_results_simp

end Entry

section Entry2
variable (m : (ℓ : Loc nD τ sig) → Buf (Elt Ideal) ℓ) (c : Dev nD)

/-- From any contents V, the padded array after the remaining operations: the three tables V holds put side by
    side, gathered at the hits' triangle ids, transposed, padded. -/
theorem tail39 (V : Valuation τ sig (Elt Ideal)) :
    (StableHlo.after tailOps V (Proc.devRef .tc main_v39) : S18x2031616.Idx → EReal)
      = pad S18x2031616 ![0, 0] ![0, 31616] ![0, 0]
          (transpose S18x2000000 [1, 0]
            (Host.gather gather_S1000000x18_S2000000x1_S2000000x18_1_0_n_n_0_1_118
              (concatenate S1000000x18 1
                [⟨S1000000x6, V (Proc.devRef .tc main_v9)⟩, ⟨S1000000x6, V (Proc.devRef .tc main_v18)⟩,
                 ⟨S1000000x6, V (Proc.devRef .tc main_v27)⟩]
                concatenates_S1000000x6_S1000000x6_S1000000x6_S1000000x18_d1)
              (primT (V (Proc.devRef .tc main_arg2))))
            transposes_S2000000x18_S18x2000000_1_0)
          (sitofp (F := Ideal) .f32 (constantI S_ 32 0#32)) pads_S18x2000000_S18x2031616_000_0316160 h_S_ := by
  unfold tailOps
  simp only [Gen.hostOps0, Gen.hostOps0_1, Gen.hostOps0_2, Gen.hostOps0_3, Gen.hostOps0_4, Gen.hostOps0_5,
    List.drop_succ_cons, List.drop_zero, List.cons_append, List.nil_append]
  after_results3
  rfl

/-- The padded array at the region's entry is the composed term of the argument arrays. -/
theorem W0_v39 :
    (StableHlo.after (List.flatten [hostOps0 (F := Ideal), hostOps0_1, hostOps0_2, hostOps0_3, hostOps0_4, hostOps0_5])
        (fun b => m (c, b)) (Proc.devRef .tc main_v39) : S18x2031616.Idx → EReal)
      = v39T (m (c, Proc.devRef .tc main_arg2)) (m (c, Proc.devRef .tc main_arg3)) (m (c, Proc.devRef .tc main_arg5))
          (m (c, Proc.devRef .tc main_arg4)) := by
  rw [W0_split, tail39, W1_v9, W1_v18, W1_v27, W1_arg m c main_arg2 (Or.inr (Or.inr rfl))]
  rfl

/-- THE GATHERED ARRAY AT A HIT'S COLUMN: lane r of column h (h below the hit count) is lane r of hit h's eighteen. -/
theorem gathered_apply (r : Fin 18) (h : Fin 2000000) (col : Fin 2031616) (hc : col.val = h.val) :
    StableHlo.after (List.flatten [hostOps0 (F := Ideal), hostOps0_1, hostOps0_2, hostOps0_3, hostOps0_4, hostOps0_5])
        (fun b => m (c, b)) (Proc.devRef .tc main_v39) (ix2 r col)
      = row18 (m ((c.tc : Thread nD τ).loc main_arg2)) (m ((c.tc : Thread nD τ).loc main_arg3))
          (m ((c.tc : Thread nD τ).loc main_arg5)) (m ((c.tc : Thread nD τ).loc main_arg4)) h r :=
  (congrFun (W0_v39 m c) (ix2 r col)).trans
    (v39T_row18 (m (c, Proc.devRef .tc main_arg2)) (m (c, Proc.devRef .tc main_arg3)) (m (c, Proc.devRef .tc main_arg5))
      (m (c, Proc.devRef .tc main_arg4)) h r col hc)

end Entry2

end Cert.KernelIdeal.Hand.Host

end
-- ==== Proof.KHostPN.lean ====
/-
  The hits' positions and normals as the region finds them.

  Before the region the program transposes the positions (hits by 3) to 3 rows by 2000000 columns and pads the
  columns up to 2031616 with a constant; the normals likewise. Neither the transposed array nor the padded one is
  touched by any other operation before the region. So, at a column below 2000000, entry (j, col) of the padded
  array is entry (col, j) of the argument: the padding leaves those columns alone, and the transposition swaps the
  two coordinates.
-/
import proofs.«408861_j29884382445937_3_alg».proof.Proof.Gen.KernelIdeal.Launch
import proofs.«408861_j29884382445937_3_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

open Idealize.ShloMosaic Idealize.ShloMosaic.TcCoe Idealize.SL.Sem Idealize.ShloMosaic.ValueIdx

namespace Cert.KernelIdeal.Hand.Host

open Cert.KernelIdeal Cert.KernelIdeal.Gen

variable (m : (ℓ : Loc nD τ sig) → Buf (Elt Ideal) ℓ) (c : Dev nD)

/-- The TensorCore's buffers when the region is entered: the launch contents put through the six stretches of
    operations before it. -/
abbrev W0 : Valuation τ sig (Elt Ideal) :=
  StableHlo.after (List.flatten [hostOps0, hostOps0_1, hostOps0_2, hostOps0_3, hostOps0_4, hostOps0_5]) (fun b => m (c, b))

/-- The six stretches run one after another. -/
theorem W0_eq : W0 m c = StableHlo.after hostOps0_5 (StableHlo.after hostOps0_4 (StableHlo.after hostOps0_3 (StableHlo.after hostOps0_2
    (StableHlo.after hostOps0_1 (StableHlo.after hostOps0 (fun b => m (c, b))))))) := by
  show StableHlo.after (List.flatten [hostOps0, hostOps0_1, hostOps0_2, hostOps0_3, hostOps0_4, hostOps0_5]) _ = _
  simp only [List.flatten_cons, List.flatten_nil, List.append_nil, StableHlo.after_append]

/-- No operation of the stretch in the goal writes the reference in the goal: compared reference by reference. -/
local macro "stretch_keeps" : tactic => `(tactic| (
  refine List.forall_iff_forall_mem.mp ?_
  simp only [hostOps0_1, hostOps0_2, hostOps0_3, hostOps0_4, hostOps0_5, List.Forall, StableHlo.nullary_writes,
    StableHlo.unary_writes, StableHlo.binary_writes, Finset.mem_singleton]
  repeat' apply And.intro
  all_goals exact StableHlo.devRef_ne_of_ne (by decide)))

/-- The stretch that pads the positions: its result is the padding of the transposed array it finds. -/
theorem padded_pos (U : Valuation τ sig (Elt Ideal)) :
    StableHlo.after hostOps0_3 U (Proc.devRef .tc main_v40)
      = pad S3x2031616 ![0, 0] ![0, 31616] ![0, 0] (U (Proc.devRef .tc main_v37))
          (sitofp (F := Ideal) .f32 (U (Proc.devRef .tc main_c_8))) pads_S3x2000000_S3x2031616_000_0316160 h_S_ := by
  after_results
  rfl

/-- After the first stretch the transposed positions are the argument with its two coordinates swapped. -/
theorem transposed_pos : StableHlo.after hostOps0 (fun b => m (c, b)) (Proc.devRef .tc main_v37)
    = transpose S3x2000000 [1, 0] (m ((c.tc : Thread nD τ).loc main_arg0)) transposes_S2000000x3_S3x2000000_1_0 := by
  after_results

/-- The stretch that pads the normals: its result is the padding of the transposed array it finds. -/
theorem padded_nrm (U : Valuation τ sig (Elt Ideal)) :
    StableHlo.after hostOps0_5 U (Proc.devRef .tc main_v41)
      = pad S3x2031616 ![0, 0] ![0, 31616] ![0, 0] (U (Proc.devRef .tc main_v38))
          (sitofp (F := Ideal) .f32 (U (Proc.devRef .tc main_c_9))) pads_S3x2000000_S3x2031616_000_0316160 h_S_ := by
  after_results
  rfl

/-- After the first stretch the transposed normals are the argument with its two coordinates swapped. -/
theorem transposed_nrm : StableHlo.after hostOps0 (fun b => m (c, b)) (Proc.devRef .tc main_v38)
    = transpose S3x2000000 [1, 0] (m ((c.tc : Thread nD τ).loc main_arg1)) transposes_S2000000x3_S3x2000000_1_0 := by
  after_results

/-- Column h < 2000000 of the padded, transposed positions is hit h's position. -/
theorem pos_apply (j : Fin 3) (h : Fin 2000000) (col : Fin 2031616) (hc : col.val = h.val) :
    W0 m c (Proc.devRef .tc main_v40) (ix2 j col) = m ((c.tc : Thread nD τ).loc main_arg0) (ix2 h j) := by
  rw [W0_eq,
    StableHlo.after_of_forall_not_mem (b := Proc.devRef .tc main_v40) hostOps0_5 _ (by stretch_keeps),
    StableHlo.after_of_forall_not_mem (b := Proc.devRef .tc main_v40) hostOps0_4 _ (by stretch_keeps),
    padded_pos]
  refine (pad_apply_of_inside _ _ _ _ _ _ _ (ix2 j col) (ix2 j h) ?_).trans ?_
  · intro a
    match a with
    | ⟨0, _⟩ => show j.val = 0 + j.val * (0 + 1); omega
    | ⟨1, _⟩ => show col.val = 0 + h.val * (0 + 1); omega
  rw [StableHlo.after_of_forall_not_mem (b := Proc.devRef .tc main_v37) hostOps0_2 _ (by stretch_keeps),
    StableHlo.after_of_forall_not_mem (b := Proc.devRef .tc main_v37) hostOps0_1 _ (by stretch_keeps),
    transposed_pos]
  refine transpose_apply _ _ _ (ix2 j h) (ix2 h j) ?_
  intro b
  match b with
  | ⟨0, _⟩ => rfl
  | ⟨1, _⟩ => rfl

/-- Column h < 2000000 of the padded, transposed normals is hit h's normal. -/
theorem nrm_apply (j : Fin 3) (h : Fin 2000000) (col : Fin 2031616) (hc : col.val = h.val) :
    W0 m c (Proc.devRef .tc main_v41) (ix2 j col) = m ((c.tc : Thread nD τ).loc main_arg1) (ix2 h j) := by
  rw [W0_eq, padded_nrm]
  refine (pad_apply_of_inside _ _ _ _ _ _ _ (ix2 j col) (ix2 j h) ?_).trans ?_
  · intro a
    match a with
    | ⟨0, _⟩ => show j.val = 0 + j.val * (0 + 1); omega
    | ⟨1, _⟩ => show col.val = 0 + h.val * (0 + 1); omega
  rw [StableHlo.after_of_forall_not_mem (b := Proc.devRef .tc main_v38) hostOps0_4 _ (by stretch_keeps),
    StableHlo.after_of_forall_not_mem (b := Proc.devRef .tc main_v38) hostOps0_3 _ (by stretch_keeps),
    StableHlo.after_of_forall_not_mem (b := Proc.devRef .tc main_v38) hostOps0_2 _ (by stretch_keeps),
    StableHlo.after_of_forall_not_mem (b := Proc.devRef .tc main_v38) hostOps0_1 _ (by stretch_keeps),
    transposed_nrm]
  refine transpose_apply _ _ _ (ix2 j h) (ix2 h j) ?_
  intro b
  match b with
  | ⟨0, _⟩ => rfl
  | ⟨1, _⟩ => rfl

end Cert.KernelIdeal.Hand.Host

end
-- ==== Proof.KValue.lean ====
/-
  The kernel program's result array, index by index.

  The region runs over 62 grid points; at point t each of its three input windows holds column block t (32768 columns)
  of its array — the gathered vertex data (18 rows), the hits' positions and the hits' normals (3 rows each), all three
  padded from 2000000 to 2031616 = 62 * 32768 columns — and the body writes column block t of the 3-row result array.
  The body works column by column: entry (j, l) of the block it leaves depends only on column l of the three input
  blocks, through the arithmetic of one hit (Cert.Spec.unitK). Hence the whole result array is ONE function G of the
  three input arrays, G (j, col) = that arithmetic on column col; each point writes the block of G under its window,
  and the 62 blocks cover the array (column col lies in block col / 32768). After the region the padding columns are
  cut off and the array is transposed, so entry (h, j) of the program's result is G (j, h); and column h < 2000000 of
  the three input arrays holds hit h's gathered vertex rows, position and normal, which makes G (j, h) component j of
  hit h's unit normal, Cert.Spec.outK.
-/
import proofs.«408861_j29884382445937_3_alg».proof.Proof.KFrame
import proofs.«408861_j29884382445937_3_alg».proof.Proof.KPayload
import proofs.«408861_j29884382445937_3_alg».proof.Proof.KHost
import proofs.«408861_j29884382445937_3_alg».proof.Proof.KHostPN
import proofs.«408861_j29884382445937_3_alg».proof.Proof.Spec
import Idealize.ShloMosaic.Lib.Pipeline.Value
import Idealize.ShloMosaic.Lib.ValueIdx
import Idealize.ShloMosaic.Lib.StableHlo.Run
import Idealize.ShloMosaic.Lib.Pipeline.FrameSuffix

noncomputable section

open Idealize.ShloMosaic Idealize.ShloMosaic.TcCoe Idealize.SL.Sem Idealize.ShloMosaic.ValueIdx
open Idealize.ShloMosaic.Pipeline (Dat)

namespace Cert.KernelIdeal.Hand.Value

open Cert.KernelIdeal Cert.KernelIdeal.Gen Cert.KernelIdeal.Hand
open Cert.KernelIdeal.Hand.Payload Cert.KernelIdeal.Hand.Host

variable (m : (ℓ : Loc nD τ sig) → Buf (Elt Ideal) ℓ) (ρ : Dev nD → PrngReg)

/-! ## The arrays the region reads, and the array it writes as one function of them -/

/-- The gathered vertex data, 18 rows by hits (padded to a whole number of column blocks), as the region finds it. -/
abbrev garr (c : Dev nD) : Vec Ideal S18x2031616 .f32 := V m c main_v39
/-- The hits' positions, transposed to 3 rows by hits and padded likewise. -/
abbrev parr (c : Dev nD) : Vec Ideal S3x2031616 .f32 := V m c main_v40
/-- The hits' normals, transposed and padded likewise. -/
abbrev narr (c : Dev nD) : Vec Ideal S3x2031616 .f32 := V m c main_v41

/-- The unit normal of one hit from its 18 gathered entries — vertex k's position in rows 6k .. 6k+2 and its feature in
    rows 6k+3 .. 6k+5 — and the hit's own position and normal. -/
def ofRows (g : Fin 18 → EReal) (p n : Fin 3 → EReal) (j : Fin 3) : EReal :=
  Cert.Spec.unitK (fun a => g ⟨a.val, by omega⟩) (fun a => g ⟨3 + a.val, by omega⟩) (fun a => g ⟨6 + a.val, by omega⟩)
    (fun a => g ⟨9 + a.val, by omega⟩) (fun a => g ⟨12 + a.val, by omega⟩) (fun a => g ⟨15 + a.val, by omega⟩) p n j

/-- Entry (j, col) of the result array: column col of the three input arrays, put through the hit's arithmetic. -/
def Gat (c : Dev nD) (j : Fin 3) (col : Fin 2031616) : EReal :=
  ofRows (fun r => garr m c (ix2 r col)) (fun a => parr m c (ix2 a col)) (fun a => narr m c (ix2 a col)) j

/-- The result array, index by index. -/
def G (c : Dev nD) : Vec Ideal S3x2031616 .f32 := fun i => Gat m c (i 0) (i 1)

theorem hz : (![0, 0] : Fin 2 → Nat) = fun _ => 0 := funext fun a => by fin_cases a <;> rfl

/-! ## Where the blocks lie -/

/-- At grid point t every window's block is the t-th column block of its array: block index 0 along the rows,
    t along the columns (decided over the 62 points). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- Entry (r, l) of the gathered data's block at point t is entry (r, 32768 t + l) of the array. -/
theorem gblk_apply (c : Dev nD) (t : Fin cfg0.N) (r : Fin 18) (l : Fin 32768) (col : Fin 2031616)
    (hcol : col.val = t.val * 32768 + l.val) :
    (iblk m c 0 t : Vec Ideal S18x32768 .f32) (ix2 r l) = garr m c (ix2 r col) := by
  obtain ⟨e0, e1, -⟩ := idx_facts t
  unfold iblk
  rw [View.read_apply]
  show garr m c _ = garr m c _
  refine congrArg (garr m c) (funext fun a => Fin.ext ?_)
  match a with
  | ⟨0, _⟩ => show win0_0.index t (0 : Fin 2) * 18 + 1 * r.val = r.val; rw [e0]; omega
  | ⟨1, _⟩ => show win0_0.index t (1 : Fin 2) * 32768 + 1 * l.val = col.val; rw [e1, hcol]; omega

/-- Entry (a, l) of the positions' block at point t is entry (a, 32768 t + l) of the array. -/
theorem pblk_apply (c : Dev nD) (t : Fin cfg0.N) (a : Fin 3) (l : Fin 32768) (col : Fin 2031616)
    (hcol : col.val = t.val * 32768 + l.val) :
    (iblk m c 1 t : Vec Ideal S3x32768 .f32) (ix2 a l) = parr m c (ix2 a col) := by
  obtain ⟨-, -, e0, e1, -⟩ := idx_facts t
  unfold iblk
  rw [View.read_apply]
  show parr m c _ = parr m c _
  refine congrArg (parr m c) (funext fun b => Fin.ext ?_)
  match b with
  | ⟨0, _⟩ => show win0_1.index t (0 : Fin 2) * 3 + 1 * a.val = a.val; rw [e0]; omega
  | ⟨1, _⟩ => show win0_1.index t (1 : Fin 2) * 32768 + 1 * l.val = col.val; rw [e1, hcol]; omega

/-- Entry (a, l) of the normals' block at point t is entry (a, 32768 t + l) of the array. -/
theorem nblk_apply (c : Dev nD) (t : Fin cfg0.N) (a : Fin 3) (l : Fin 32768) (col : Fin 2031616)
    (hcol : col.val = t.val * 32768 + l.val) :
    (iblk m c 2 t : Vec Ideal S3x32768 .f32) (ix2 a l) = narr m c (ix2 a col) := by
  obtain ⟨-, -, -, -, e0, e1, -⟩ := idx_facts t
  unfold iblk
  rw [View.read_apply]
  show narr m c _ = narr m c _
  refine congrArg (narr m c) (funext fun b => Fin.ext ?_)
  match b with
  | ⟨0, _⟩ => show win0_2.index t (0 : Fin 2) * 3 + 1 * a.val = a.val; rw [e0]; omega
  | ⟨1, _⟩ => show win0_2.index t (1 : Fin 2) * 32768 + 1 * l.val = col.val; rw [e1, hcol]; omega

/-- Index y of the result's block at point t is index (y 0, 32768 t + y 1) of the result array. -/
theorem oblk_emb (t : Fin cfg0.N) (y : S3x32768.Idx) (col : Fin 2031616) (hcol : col.val = t.val * 32768 + (y 1).val) :
    (((cfg0.win 3).blk t).view.emb y : S3x2031616.Idx) = ix2 (y 0) col := by
  obtain ⟨-, -, -, -, -, -, e0, e1⟩ := idx_facts t
  funext a
  apply Fin.ext
  match a with
  | ⟨0, _⟩ => show win0_3.index t (0 : Fin 2) * 3 + 1 * (y 0).val = (y 0).val; rw [e0]; omega
  | ⟨1, _⟩ => show win0_3.index t (1 : Fin 2) * 32768 + 1 * (y 1).val = col.val; rw [e1, hcol]; omega

/-! ## What one grid point writes back -/

/-- The body's arithmetic on three whole blocks, read at an index: the hit's arithmetic on that column of the blocks. -/
theorem block_value (x0 : Vec Ideal S18x32768 .f32) (x1 x2 : Vec Ideal S3x32768 .f32) (y : S3x32768.Idx) :
    k0_pay1 (F := Ideal) (k0_pay4 x0) (k0_pay5 x0) (k0_pay6 x2) (k0_pay17 x0 x1) (k0_pay18 x0 x1) (k0_pay19 x0 x1) y
      = ofRows (fun r => x0 (ix2 r (y 1))) (fun a => x1 (ix2 a (y 1))) (fun a => x2 (ix2 a (y 1))) (y 0) :=
  (congrArg (k0_pay1 (F := Ideal) (k0_pay4 x0) (k0_pay5 x0) (k0_pay6 x2) (k0_pay17 x0 x1) (k0_pay18 x0 x1) (k0_pay19 x0 x1)) (eq_ix2 y)).trans
    (payload_apply x0 x1 x2 (y 0) (y 1))

/-- At point t and block index y the body leaves the result array's entry under that index. -/
theorem point_value (c : Dev nD) (t : Fin cfg0.N) (y : S3x32768.Idx) :
    k0_pay1 (F := Ideal) (k0_pay4 (iblk m c 0 t)) (k0_pay5 (iblk m c 0 t)) (k0_pay6 (iblk m c 2 t))
        (k0_pay17 (iblk m c 0 t) (iblk m c 1 t)) (k0_pay18 (iblk m c 0 t) (iblk m c 1 t)) (k0_pay19 (iblk m c 0 t) (iblk m c 1 t)) y
      = G m c (((cfg0.win 3).blk t).view.emb y) := by
  have ht : t.val < 62 := lt_of_lt_of_eq t.isLt N_0
  have hy : (y 1).val < 32768 := idx2_lt1 y
  have hlt : t.val * 32768 + (y 1).val < 2031616 := by omega
  refine (block_value (iblk m c 0 t) (iblk m c 1 t) (iblk m c 2 t) y).trans ?_
  refine Eq.trans ?_ (congrArg (G m c) (oblk_emb t y ⟨_, hlt⟩ rfl)).symm
  show ofRows _ _ _ (y 0) = Gat m c (y 0) ⟨_, hlt⟩
  unfold Gat
  rw [show (fun r : Fin 18 => (iblk m c 0 t : Vec Ideal S18x32768 .f32) (ix2 r (y 1))) = fun r => garr m c (ix2 r ⟨_, hlt⟩) from
      funext fun r => gblk_apply m c t r (y 1) ⟨_, hlt⟩ rfl,
    show (fun a : Fin 3 => (iblk m c 1 t : Vec Ideal S3x32768 .f32) (ix2 a (y 1))) = fun a => parr m c (ix2 a ⟨_, hlt⟩) from
      funext fun a => pblk_apply m c t a (y 1) ⟨_, hlt⟩ rfl,
    show (fun a : Fin 3 => (iblk m c 2 t : Vec Ideal S3x32768 .f32) (ix2 a (y 1))) = fun a => narr m c (ix2 a ⟨_, hlt⟩) from
      funext fun a => nblk_apply m c t a (y 1) ⟨_, hlt⟩ rfl]

/-- WHAT POINT t WRITES BACK is block t of G. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz]
  simp only [View.ld_unit_zero (S := S18x32768) hz, View.ld_unit_zero (S := S3x32768) hz]
  funext y
  exact point_value m c t y

/-! ## The blocks cover the array -/

/-- An index is in point t's block iff each coordinate is in the block's range on its axis. -/
theorem mem_oblk (t : Fin cfg0.N) (i : S3x2031616.Idx) :
    i ∈ ((cfg0.win 3).blk t).view.set ↔ ∀ a : Fin 2, win0_3.index t a * S3x32768.size a ≤ (i a).val ∧ (i a).val < win0_3.index t a * S3x32768.size a + S3x32768.size a := by
  show i ∈ ((View.whole main_v42).slice (win0_3.rect t)).set ↔ _
  rw [View.set_slice_whole, Rect.mem_set_unit]
  exact Iff.rfl

/-- Column col lies in the block of point col / 32768. -/
theorem covered (i : S3x2031616.Idx) :
    ∃ t : Fin cfg0.N, (cfg0.win 3).flush t = true ∧ i ∈ ((cfg0.win 3).blk t).view.set := by
  have h0 : (i 0).val < 3 := idx2_lt0 i
  have h1 : (i 1).val < 2031616 := idx2_lt1 i
  obtain ⟨t, ht⟩ : ∃ t : Fin cfg0.N, t.val = (i 1).val / 32768 :=
    ⟨⟨(i 1).val / 32768, lt_of_lt_of_eq (by omega : (i 1).val / 32768 < 62) N_0.symm⟩, rfl⟩
  obtain ⟨-, -, -, -, -, -, e0, e1⟩ := idx_facts t
  refine ⟨t, flush0_3 t, ?_⟩
  rw [mem_oblk]
  intro a
  match a with
  | ⟨0, _⟩ => show win0_3.index t (0 : Fin 2) * 3 ≤ (i 0).val ∧ (i 0).val < win0_3.index t (0 : Fin 2) * 3 + 3; rw [e0]; omega
  | ⟨1, _⟩ => show win0_3.index t (1 : Fin 2) * 32768 ≤ (i 1).val ∧ (i 1).val < win0_3.index t (1 : Fin 2) * 32768 + 32768; rw [e1, ht]; omega

/-- THE RESULT ARRAY after the region is G. -/
theorem final (c : Dev nD) : (dats m 0 c).arrAt 3 cfg0.N = G m c :=
  (dats m 0 c).arrAt_eq_of_cover 3 (G m c) (fun t _ => flushed_eq m c t) covered

/-! ## After the region: the padding columns cut off, then hits by components -/

/-- Entry (h, j) of the program's result is entry (j, h) of G. -/
theorem tail_value (c : Dev nD) :
    Pipeline.afterTail₀ cfgs (dats m) 0 (V0 m) [hostOps1] c main_v44
      = (fun i : S2000000x3.Idx => Gat m c (i 1) ⟨(i 0).val, lt_trans (idx2_lt0 i) (by decide)⟩) := by
  have e : Pipeline.withArrays (cfgs 0).spec c (V0 m c) (fun w => (dats m 0 c).arrAt w (cfgs 0).N) (Proc.devRef .tc main_v42) = G m c :=
    (Pipeline.withArrays_arr spec0 launch0.win.arr_inj c _ _ 3).trans (final m c)
  unfold Pipeline.afterTail₀
  show StableHlo.after hostOps1 _ (Proc.devRef .tc main_v44) = _
  after_results
  funext i
  refine (transpose_apply _ _ _ i (ix2 (i 1) (i 0)) ?_).trans ?_
  · intro b
    match b with
    | ⟨0, _⟩ => rfl
    | ⟨1, _⟩ => rfl
  refine (extractStridedSlice_apply _ _ _ (ix2 (i 1) (i 0)) (ix2 (i 1) ⟨(i 0).val, lt_trans (idx2_lt0 i) (by decide)⟩) ?_).trans ?_
  · intro a
    match a with
    | ⟨0, _⟩ => show (i 1).val = 0 + (i 1).val; omega
    | ⟨1, _⟩ => show (i 0).val = 0 + (i 0).val; omega
  exact congrFun e _

/-! ## The result in the hits' own terms -/

/-- Column h of the three input arrays holds hit h's gathered vertex data, position and normal; so entry (j, h) of G
    is component j of hit h's unit normal. -/
theorem Gat_eq (c : Dev nD) (h : Fin 2000000) (j : Fin 3) (col : Fin 2031616) (hc : col.val = h.val) :
    Gat m c j col = Cert.Spec.outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg4)) h j := by
  have eg : (fun r : Fin 18 => garr m c (ix2 r col)) = row18 (m ((c.tc : Thread nD τ).loc main_arg2)) (m ((c.tc : Thread nD τ).loc main_arg3)) (m ((c.tc : Thread nD τ).loc main_arg5)) (m ((c.tc : Thread nD τ).loc main_arg4)) h :=
    funext fun r => gathered_apply m c r h col hc
  have ep : (fun a : Fin 3 => parr m c (ix2 a col)) = Cert.Spec.hpos (m ((c.tc : Thread nD τ).loc main_arg0)) h := funext fun a => pos_apply m c a h col hc
  have en : (fun a : Fin 3 => narr m c (ix2 a col)) = Cert.Spec.hnrm (m ((c.tc : Thread nD τ).loc main_arg1)) h := funext fun a => nrm_apply m c a h col hc
  unfold Gat
  rw [eg, ep, en]
  unfold ofRows Cert.Spec.outK
  rw [row18_p0, row18_f0, row18_p1, row18_f1, row18_p2, row18_f2]

/-! ## The run -/

/-- Every execution of the kernel program ends; the result array then holds, at (h, j), component j of hit h's unit
    normal, and the six arguments are as launched. -/
theorem value_run : θ_run defs (onTc (τ := τ) (main (F := Ideal))) ⟨m, fun _ => 0, ρ⟩ (fun r => ∀ c : Dev nD,
      r.2.mem ((c.tc : Thread nD τ).loc main_v44)
        = (fun i => Cert.Spec.outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg4)) ⟨(i 0).val, (i 0).isLt⟩ ⟨(i 1).val, (i 1).isLt⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(((h c).2 main_v44 (Pipeline.mem_restRefs_of main_v44 (by decide) (by decide))).trans (tail_value m c)).trans
        (funext fun i => Gat_eq m c ⟨(i 0).val, (i 0).isLt⟩ (i 1) _ rfl),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Hand.Value

end
-- ==== Proof.RValue.lean ====
/-
  The reference's stages, read index by index, are the specification's terms.

  The reference computes, for hit h: the triangle it names (its primitive id, a negative one counted from the end,
  then the table lookup's own clamp), that triangle's three vertex numbers (the index buffer's row, read the same
  way), the vertices' position rows and feature rows (two more row lookups), the edges e1 = p1 - p0,
  e2 = p2 - p0 and pp = hit - p0, the five dot products over the three components (each sum starts from the
  float zero, which is the extended real 0), the Gram determinant, the two quotients bv and bw and
  bu = 1 - bv - bw, the interpolated feature bu f0 + bv f1 + bw f2, the blend n + (nmap 2 - 1) / 4, its
  squared length and the quotient by that length's square root. Each stage below is stated at one index
  (h), (h, j) or (h, k, j) and equals the specification's term of the same name; the layout stages in between
  (an added or dropped unit axis, a slice of the middle axis, a column spread over the lanes) only move the index,
  and each such move is an equation between two index functions checked coordinate by coordinate.
-/
import proofs.«408861_j29884382445937_3_alg».proof.Proof.RefRead
import proofs.«408861_j29884382445937_3_alg».proof.Proof.Spec
import proofs.«408861_j29884382445937_3_alg».proof.Proof.LibGather
import Idealize.ShloMosaic.Lib.ValueIdx
import Idealize.ShloMosaic.Lib.Pipeline.Value
import Idealize.ShloMosaic.PureOps.Ideal.Laws

namespace Cert.ReferenceIdeal.Hand

open Cert.ReferenceIdeal Cert.ReferenceIdeal.Gen Cert.ReferenceIdeal.ReadP Idealize.ShloMosaic Idealize.ShloMosaic.ValueIdx
  Idealize.ShloMosaic.RowGather

variable (x0 x1 : (⟨S2000000x3, .f32⟩ : BufTy).Contents (Elt Ideal)) (x2 : (⟨S2000000, .i32⟩ : BufTy).Contents (Elt Ideal))
  (x3 : (⟨S500000x3, .f32⟩ : BufTy).Contents (Elt Ideal)) (x4 : (⟨S1000000x3, .i32⟩ : BufTy).Contents (Elt Ideal))
  (x5 : (⟨S500000x3, .f32⟩ : BufTy).Contents (Elt Ideal)) (h : Fin 2000000)

/-- The three vertices' position rows and feature rows, and the hit's own two rows. -/
local notation "P₀" => Spec.pv x2 x3 x4 h 0
local notation "P₁" => Spec.pv x2 x3 x4 h 1
local notation "P₂" => Spec.pv x2 x3 x4 h 2
local notation "F₀" => Spec.fv x2 x5 x4 h 0
local notation "F₁" => Spec.fv x2 x5 x4 h 1
local notation "F₂" => Spec.fv x2 x5 x4 h 2
local notation "Hp" => Spec.hpos x0 h

/-! ## The triangle a hit names -/

/-- The primitive id read as a wrapping index: 1000000 added when it is negative. -/
theorem prim_word (i : S2000000.Idx) :
    val_main_v4 (F := Ideal) x2 i = Spec.wrap 1000000#32 (x2 i) := by
  show _ = Scalar.select (IntOp.cmpi .slt (x2 i) 0#32) (IntOp.addi (x2 i) 1000000#32) (x2 i)
  rw [val_main_v4_apply, val_main_v1_apply, val_main_v3_apply, val_main_v0_apply, val_main_v2_apply,
    val_main_c_apply, val_main_c_0_apply]

/-- The same word in the column of start indices. -/
theorem prim_col (u : Fin 1) :
    val_main_v5 (F := Ideal) x2 (ix2 h u) = Spec.wrap 1000000#32 (x2 (ix1 h)) := by
  rw [val_main_v5_apply,
    show idx_main_v5 (ix2 h u) = ix1 h from funext fun a => Fin.ext (by match a with | ⟨0, _⟩ => rfl),
    prim_word]

/-- The index buffer's row at the hit's triangle. -/
theorem tri_row (k : Fin 3) :
    val_main_v6 (F := Ideal) x2 x4 (ix2 h k) = x4 (ix2 (Spec.tri x2 h) k) := by
  unfold val_main_v6
  refine (gather_rows_apply (by decide) _ x4 (val_main_v5 (F := Ideal) x2) h k).trans ?_
  refine congrArg (fun r : Fin 1000000 => x4 (ix2 r k)) (Fin.ext ?_)
  show min (val_main_v5 (F := Ideal) x2 (ix2 h (0 : Fin 1))).toInt.toNat (1000000 - 1)
    = min (Spec.wrap 1000000#32 (x2 (ix1 h))).toInt.toNat (1000000 - 1)
  rw [prim_col]

/-! ## The triangle's three vertices -/

/-- A vertex number read as a wrapping index: 500000 added when it is negative (the positions' lookup). -/
theorem vtx_word (k : Fin 3) :
    val_main_v11 (F := Ideal) x2 x4 (ix2 h k) = Spec.wrap 500000#32 (x4 (ix2 (Spec.tri x2 h) k)) := by
  show _ = Scalar.select (IntOp.cmpi .slt (x4 (ix2 (Spec.tri x2 h) k)) 0#32)
    (IntOp.addi (x4 (ix2 (Spec.tri x2 h) k)) 500000#32) (x4 (ix2 (Spec.tri x2 h) k))
  rw [val_main_v11_apply, val_main_v8_apply, val_main_v10_apply, val_main_v7_apply, val_main_v9_apply,
    val_main_c_1_apply, val_main_c_2_apply, tri_row]

/-- The same word, computed a second time for the features' lookup. -/
theorem vtx_word₂ (k : Fin 3) :
    val_main_v51 (F := Ideal) x2 x4 (ix2 h k) = Spec.wrap 500000#32 (x4 (ix2 (Spec.tri x2 h) k)) := by
  show _ = Scalar.select (IntOp.cmpi .slt (x4 (ix2 (Spec.tri x2 h) k)) 0#32)
    (IntOp.addi (x4 (ix2 (Spec.tri x2 h) k)) 500000#32) (x4 (ix2 (Spec.tri x2 h) k))
  rw [val_main_v51_apply, val_main_v48_apply, val_main_v50_apply, val_main_v47_apply, val_main_v49_apply,
    val_main_c_8_apply, val_main_c_9_apply, tri_row]

/-- The two arrays of start indices [hit, vertex, 1]. -/
theorem vtx_col (k : Fin 3) (u : Fin 1) :
    val_main_v12 (F := Ideal) x2 x4 (ix3 h k u) = Spec.wrap 500000#32 (x4 (ix2 (Spec.tri x2 h) k)) := by
  rw [val_main_v12_apply,
    show idx_main_v12 (ix3 h k u) = ix2 h k from
      funext fun a => Fin.ext (by match a with | ⟨0, _⟩ => rfl | ⟨1, _⟩ => rfl),
    vtx_word]

theorem vtx_col₂ (k : Fin 3) (u : Fin 1) :
    val_main_v52 (F := Ideal) x2 x4 (ix3 h k u) = Spec.wrap 500000#32 (x4 (ix2 (Spec.tri x2 h) k)) := by
  rw [val_main_v52_apply,
    show idx_main_v52 (ix3 h k u) = ix2 h k from
      funext fun a => Fin.ext (by match a with | ⟨0, _⟩ => rfl | ⟨1, _⟩ => rfl),
    vtx_word₂]

/-- The position row of the hit's k-th vertex. -/
theorem pos_row (k j : Fin 3) :
    val_main_v13 (F := Ideal) x2 x3 x4 (ix3 h k j) = x3 (ix2 (Spec.vtx x2 x4 h k) j) := by
  unfold val_main_v13
  refine (gather_rows3_apply (by decide) _ x3 (val_main_v12 (F := Ideal) x2 x4) h k j).trans ?_
  refine congrArg (fun r : Fin 500000 => x3 (ix2 r j)) (Fin.ext ?_)
  show min (val_main_v12 (F := Ideal) x2 x4 (ix3 h k (0 : Fin 1))).toInt.toNat (500000 - 1)
    = min (Spec.wrap 500000#32 (x4 (ix2 (Spec.tri x2 h) k))).toInt.toNat (500000 - 1)
  rw [vtx_col]

/-- The feature row of the hit's k-th vertex. -/
theorem feat_row (k j : Fin 3) :
    val_main_v53 (F := Ideal) x2 x4 x5 (ix3 h k j) = x5 (ix2 (Spec.vtx x2 x4 h k) j) := by
  unfold val_main_v53
  refine (gather_rows3_apply (by decide) _ x5 (val_main_v52 (F := Ideal) x2 x4) h k j).trans ?_
  refine congrArg (fun r : Fin 500000 => x5 (ix2 r j)) (Fin.ext ?_)
  show min (val_main_v52 (F := Ideal) x2 x4 (ix3 h k (0 : Fin 1))).toInt.toNat (500000 - 1)
    = min (Spec.wrap 500000#32 (x4 (ix2 (Spec.tri x2 h) k))).toInt.toNat (500000 - 1)
  rw [vtx_col₂]

/-! ## One vertex' row: the middle axis sliced at k, then dropped

  Entry (h, j) of the sliced and reshaped array is entry (h, k, j) of the rows: the flat position h 3 + j of
  the matrix [hits, 3] is row h, lane j of [hits, 1, 3]. -/

theorem pos0 (j : Fin 3) : val_main_v15 (F := Ideal) x2 x3 x4 (ix2 h j) = P₀ j := by
  show _ = x3 (ix2 (Spec.vtx x2 x4 h 0) j)
  rw [val_main_v15_apply, val_main_v14_apply,
    show idx_main_v14 (idx_main_v15 (ix2 h j)) = ix3 h (0 : Fin 3) j from
      funext fun a => Fin.ext (by
        have hj := j.isLt
        match a with
        | ⟨0, _⟩ => show (h.val * 3 + j.val) / 3 = h.val; omega
        | ⟨1, _⟩ => rfl
        | ⟨2, _⟩ => show (h.val * 3 + j.val) % 3 = j.val; omega),
    pos_row]

theorem pos1 (j : Fin 3) : val_main_v17 (F := Ideal) x2 x3 x4 (ix2 h j) = P₁ j := by
  show _ = x3 (ix2 (Spec.vtx x2 x4 h 1) j)
  rw [val_main_v17_apply, val_main_v16_apply,
    show idx_main_v16 (idx_main_v17 (ix2 h j)) = ix3 h (1 : Fin 3) j from
      funext fun a => Fin.ext (by
        have hj := j.isLt
        match a with
        | ⟨0, _⟩ => show (h.val * 3 + j.val) / 3 = h.val; omega
        | ⟨1, _⟩ => rfl
        | ⟨2, _⟩ => show (h.val * 3 + j.val) % 3 = j.val; omega),
    pos_row]

theorem pos2 (j : Fin 3) : val_main_v19 (F := Ideal) x2 x3 x4 (ix2 h j) = P₂ j := by
  show _ = x3 (ix2 (Spec.vtx x2 x4 h 2) j)
  rw [val_main_v19_apply, val_main_v18_apply,
    show idx_main_v18 (idx_main_v19 (ix2 h j)) = ix3 h (2 : Fin 3) j from
      funext fun a => Fin.ext (by
        have hj := j.isLt
        match a with
        | ⟨0, _⟩ => show (h.val * 3 + j.val) / 3 = h.val; omega
        | ⟨1, _⟩ => rfl
        | ⟨2, _⟩ => show (h.val * 3 + j.val) % 3 = j.val; omega),
    pos_row]

theorem feat0 (j : Fin 3) : val_main_v56 (F := Ideal) x2 x4 x5 (ix2 h j) = F₀ j := by
  show _ = x5 (ix2 (Spec.vtx x2 x4 h 0) j)
  rw [val_main_v56_apply, val_main_v55_apply,
    show idx_main_v55 (idx_main_v56 (ix2 h j)) = ix3 h (0 : Fin 3) j from
      funext fun a => Fin.ext (by
        have hj := j.isLt
        match a with
        | ⟨0, _⟩ => show (h.val * 3 + j.val) / 3 = h.val; omega
        | ⟨1, _⟩ => rfl
        | ⟨2, _⟩ => show (h.val * 3 + j.val) % 3 = j.val; omega),
    feat_row]

theorem feat1 (j : Fin 3) : val_main_v61 (F := Ideal) x2 x4 x5 (ix2 h j) = F₁ j := by
  show _ = x5 (ix2 (Spec.vtx x2 x4 h 1) j)
  rw [val_main_v61_apply, val_main_v60_apply,
    show idx_main_v60 (idx_main_v61 (ix2 h j)) = ix3 h (1 : Fin 3) j from
      funext fun a => Fin.ext (by
        have hj := j.isLt
        match a with
        | ⟨0, _⟩ => show (h.val * 3 + j.val) / 3 = h.val; omega
        | ⟨1, _⟩ => rfl
        | ⟨2, _⟩ => show (h.val * 3 + j.val) % 3 = j.val; omega),
    feat_row]

theorem feat2 (j : Fin 3) : val_main_v67 (F := Ideal) x2 x4 x5 (ix2 h j) = F₂ j := by
  show _ = x5 (ix2 (Spec.vtx x2 x4 h 2) j)
  rw [val_main_v67_apply, val_main_v66_apply,
    show idx_main_v66 (idx_main_v67 (ix2 h j)) = ix3 h (2 : Fin 3) j from
      funext fun a => Fin.ext (by
        have hj := j.isLt
        match a with
        | ⟨0, _⟩ => show (h.val * 3 + j.val) / 3 = h.val; omega
        | ⟨1, _⟩ => rfl
        | ⟨2, _⟩ => show (h.val * 3 + j.val) % 3 = j.val; omega),
    feat_row]

/-! ## The two edges and the hit relative to the first vertex -/

theorem edge1 (j : Fin 3) : val_main_v20 (F := Ideal) x2 x3 x4 (ix2 h j) = Spec.e1 P₀ P₁ j := by
  show _ = P₁ j - P₀ j
  rw [val_main_v20_apply, Ideal.subf_def, pos1, pos0]

theorem edge2 (j : Fin 3) : val_main_v21 (F := Ideal) x2 x3 x4 (ix2 h j) = Spec.e2 P₀ P₂ j := by
  show _ = P₂ j - P₀ j
  rw [val_main_v21_apply, Ideal.subf_def, pos2, pos0]

theorem rel (j : Fin 3) : val_main_v22 (F := Ideal) x0 x2 x3 x4 (ix2 h j) = Spec.pp P₀ Hp j := by
  show _ = x0 (ix2 h j) - P₀ j
  rw [val_main_v22_apply, Ideal.subf_def, pos0]

/-! ## The five dot products: the float zero plus the sum over the three components -/

theorem gram00 : val_main_v24 (F := Ideal) x2 x3 x4 (ix1 h) = Spec.d00 P₀ P₁ := by
  show _ = ∑ k : Fin 3, Spec.e1 P₀ P₁ k * Spec.e1 P₀ P₁ k
  rw [val_main_v24_apply, val_main_cst_apply, Ideal.ofBits_def, Ideal.ofBits_zero_f32, zero_add]
  refine Finset.sum_congr rfl fun k _ => ?_
  rw [show idx_main_v24 (ix1 h) k = ix2 h k from
      funext fun a => Fin.ext (by match a with | ⟨0, _⟩ => rfl | ⟨1, _⟩ => rfl),
    val_main_v23_apply, Ideal.mulf_def, edge1]

theorem gram01 : val_main_v26 (F := Ideal) x2 x3 x4 (ix1 h) = Spec.d01 P₀ P₁ P₂ := by
  show _ = ∑ k : Fin 3, Spec.e1 P₀ P₁ k * Spec.e2 P₀ P₂ k
  rw [val_main_v26_apply, val_main_cst_3_apply, Ideal.ofBits_def, Ideal.ofBits_zero_f32, zero_add]
  refine Finset.sum_congr rfl fun k _ => ?_
  rw [show idx_main_v26 (ix1 h) k = ix2 h k from
      funext fun a => Fin.ext (by match a with | ⟨0, _⟩ => rfl | ⟨1, _⟩ => rfl),
    val_main_v25_apply, Ideal.mulf_def, edge1, edge2]

theorem gram11 : val_main_v28 (F := Ideal) x2 x3 x4 (ix1 h) = Spec.d11 P₀ P₂ := by
  show _ = ∑ k : Fin 3, Spec.e2 P₀ P₂ k * Spec.e2 P₀ P₂ k
  rw [val_main_v28_apply, val_main_cst_4_apply, Ideal.ofBits_def, Ideal.ofBits_zero_f32, zero_add]
  refine Finset.sum_congr rfl fun k _ => ?_
  rw [show idx_main_v28 (ix1 h) k = ix2 h k from
      funext fun a => Fin.ext (by match a with | ⟨0, _⟩ => rfl | ⟨1, _⟩ => rfl),
    val_main_v27_apply, Ideal.mulf_def, edge2]

theorem gram20 : val_main_v30 (F := Ideal) x0 x2 x3 x4 (ix1 h) = Spec.d20 P₀ P₁ Hp := by
  show _ = ∑ k : Fin 3, Spec.pp P₀ Hp k * Spec.e1 P₀ P₁ k
  rw [val_main_v30_apply, val_main_cst_5_apply, Ideal.ofBits_def, Ideal.ofBits_zero_f32, zero_add]
  refine Finset.sum_congr rfl fun k _ => ?_
  rw [show idx_main_v30 (ix1 h) k = ix2 h k from
      funext fun a => Fin.ext (by match a with | ⟨0, _⟩ => rfl | ⟨1, _⟩ => rfl),
    val_main_v29_apply, Ideal.mulf_def, rel, edge1]

theorem gram21 : val_main_v32 (F := Ideal) x0 x2 x3 x4 (ix1 h) = Spec.d21 P₀ P₂ Hp := by
  show _ = ∑ k : Fin 3, Spec.pp P₀ Hp k * Spec.e2 P₀ P₂ k
  rw [val_main_v32_apply, val_main_cst_6_apply, Ideal.ofBits_def, Ideal.ofBits_zero_f32, zero_add]
  refine Finset.sum_congr rfl fun k _ => ?_
  rw [show idx_main_v32 (ix1 h) k = ix2 h k from
      funext fun a => Fin.ext (by match a with | ⟨0, _⟩ => rfl | ⟨1, _⟩ => rfl),
    val_main_v31_apply, Ideal.mulf_def, rel, edge2]

/-! ## The Gram determinant and the three barycentric weights -/

theorem det : val_main_v35 (F := Ideal) x2 x3 x4 (ix1 h) = Spec.denom P₀ P₁ P₂ := by
  show _ = Spec.d00 P₀ P₁ * Spec.d11 P₀ P₂ - Spec.d01 P₀ P₁ P₂ * Spec.d01 P₀ P₁ P₂
  rw [val_main_v35_apply, val_main_v33_apply, val_main_v34_apply, Ideal.subf_def, Ideal.mulf_def, Ideal.mulf_def,
    gram00, gram11, gram01]

theorem wv : val_main_v39 (F := Ideal) x0 x2 x3 x4 (ix1 h) = Spec.bv P₀ P₁ P₂ Hp := by
  show _ = Ideal.div (Spec.d11 P₀ P₂ * Spec.d20 P₀ P₁ Hp - Spec.d01 P₀ P₁ P₂ * Spec.d21 P₀ P₂ Hp) (Spec.denom P₀ P₁ P₂)
  rw [val_main_v39_apply, val_main_v38_apply, val_main_v36_apply, val_main_v37_apply, Ideal.hostDivf_def,
    Ideal.subf_def, Ideal.mulf_def, Ideal.mulf_def, gram11, gram20, gram01, gram21, det]

theorem ww : val_main_v43 (F := Ideal) x0 x2 x3 x4 (ix1 h) = Spec.bw P₀ P₁ P₂ Hp := by
  show _ = Ideal.div (Spec.d00 P₀ P₁ * Spec.d21 P₀ P₂ Hp - Spec.d01 P₀ P₁ P₂ * Spec.d20 P₀ P₁ Hp) (Spec.denom P₀ P₁ P₂)
  rw [val_main_v43_apply, val_main_v42_apply, val_main_v40_apply, val_main_v41_apply, Ideal.hostDivf_def,
    Ideal.subf_def, Ideal.mulf_def, Ideal.mulf_def, gram00, gram21, gram01, gram20, det]

theorem wu : val_main_v46 (F := Ideal) x0 x2 x3 x4 (ix1 h) = Spec.bu P₀ P₁ P₂ Hp := by
  show _ = Spec.one - Spec.bv P₀ P₁ P₂ Hp - Spec.bw P₀ P₁ P₂ Hp
  rw [val_main_v46_apply, val_main_v45_apply, val_main_v44_apply, val_main_cst_7_apply, Ideal.subf_def,
    Ideal.subf_def, Ideal.ofBits_def, wv, ww]

/-! ## A weight spread over the three lanes: the column [hits, 1] read at (h, 0) -/

theorem wu_lane (j : Fin 3) : val_main_v57 (F := Ideal) x0 x2 x3 x4 (ix2 h j) = Spec.bu P₀ P₁ P₂ Hp := by
  rw [val_main_v57_apply, val_main_v54_apply,
    show idx_main_v54 (idx_main_v57 (ix2 h j)) = ix1 h from
      funext fun a => Fin.ext (by match a with | ⟨0, _⟩ => rfl),
    wu]

theorem wv_lane (j : Fin 3) : val_main_v62 (F := Ideal) x0 x2 x3 x4 (ix2 h j) = Spec.bv P₀ P₁ P₂ Hp := by
  rw [val_main_v62_apply, val_main_v59_apply,
    show idx_main_v59 (idx_main_v62 (ix2 h j)) = ix1 h from
      funext fun a => Fin.ext (by match a with | ⟨0, _⟩ => rfl),
    wv]

theorem ww_lane (j : Fin 3) : val_main_v68 (F := Ideal) x0 x2 x3 x4 (ix2 h j) = Spec.bw P₀ P₁ P₂ Hp := by
  rw [val_main_v68_apply, val_main_v65_apply,
    show idx_main_v65 (idx_main_v68 (ix2 h j)) = ix1 h from
      funext fun a => Fin.ext (by match a with | ⟨0, _⟩ => rfl),
    ww]

/-! ## The interpolated feature and the blend -/

theorem interp (j : Fin 3) :
    val_main_v70 (F := Ideal) x0 x2 x3 x4 x5 (ix2 h j) = Spec.nmap P₀ F₀ P₁ F₁ P₂ F₂ Hp j := by
  show _ = Spec.bu P₀ P₁ P₂ Hp * F₀ j + Spec.bv P₀ P₁ P₂ Hp * F₁ j + Spec.bw P₀ P₁ P₂ Hp * F₂ j
  rw [val_main_v70_apply, val_main_v64_apply, val_main_v58_apply, val_main_v63_apply, val_main_v69_apply,
    Ideal.addf_def, Ideal.addf_def, Ideal.mulf_def, Ideal.mulf_def, Ideal.mulf_def,
    wu_lane, wv_lane, ww_lane, feat0, feat1, feat2]

/-- The blended normal n + (nmap 2 - 1) / 4. -/
theorem ref_blend (j : Fin 3) :
    val_main_v77 (F := Ideal) x0 x1 x2 x3 x4 x5 (ix2 h j) = Spec.Nv x0 x1 x2 x3 x5 x4 h j := by
  show _ = x1 (ix2 h j) + (Spec.nmap P₀ F₀ P₁ F₁ P₂ F₂ Hp j * Spec.two - Spec.one) * Spec.quarter
  rw [val_main_v77_apply, val_main_v76_apply, val_main_v74_apply, val_main_v72_apply, val_main_v71_apply,
    val_main_v73_apply, val_main_v75_apply, val_main_cst_10_apply, val_main_cst_11_apply, val_main_cst_12_apply,
    Ideal.addf_def, Ideal.mulf_def, Ideal.subf_def, Ideal.mulf_def, Ideal.ofBits_def, Ideal.ofBits_def,
    Ideal.ofBits_def, interp]

/-! ## The squared length and the quotient by its square root -/

theorem ref_sq : val_main_call0_v1 (F := Ideal) x0 x1 x2 x3 x4 x5 (ix1 h) = Spec.s x0 x1 x2 x3 x5 x4 h := by
  show _ = ∑ k : Fin 3, Spec.Nv x0 x1 x2 x3 x5 x4 h k * Spec.Nv x0 x1 x2 x3 x5 x4 h k
  rw [val_main_call0_v1_apply, val_main_call0_cst_apply, Ideal.ofBits_def, Ideal.ofBits_zero_f32, zero_add]
  refine Finset.sum_congr rfl fun k _ => ?_
  rw [show idx_main_call0_v1 (ix1 h) k = ix2 h k from
      funext fun a => Fin.ext (by match a with | ⟨0, _⟩ => rfl | ⟨1, _⟩ => rfl),
    val_main_call0_v0_apply, Ideal.mulf_def, ref_blend]

theorem ref_out (j : Fin 3) :
    val_main_v80 (F := Ideal) x0 x1 x2 x3 x4 x5 (ix2 h j) = Spec.outR x0 x1 x2 x3 x5 x4 h j := by
  show _ = Ideal.div (Spec.Nv x0 x1 x2 x3 x5 x4 h j) (Ideal.sqrt (Spec.s x0 x1 x2 x3 x5 x4 h))
  rw [val_main_v80_apply, val_main_v79_apply, val_main_v78_apply, val_main_call0_v2_apply,
    show idx_main_call0_v2 (idx_main_v79 (ix2 h j)) = ix1 h from
      funext fun a => Fin.ext (by match a with | ⟨0, _⟩ => rfl),
    Ideal.hostDivf_def, Ideal.hostUnary_sqrt_def, ref_blend, ref_sq]

end Cert.ReferenceIdeal.Hand
-- ==== Proof.PreDecode.lean ====
/-
  The statement's precondition, decoded. The predicate is a conjunction: four tests that every entry of a float
  array is finite, and one test that recomputes the reference's blended normal N (the same operations in the same
  order as the reference) and asks that every row's sum of squares N 0 ^ 2 + N 1 ^ 2 + N 2 ^ 2 be greater than zero.
  From the predicate being true we read off, for every hit h, 0 < s h, where s h is the squared length of the
  blended normal as the specification names it.

  Three steps. (1) The predicate equals the conjunction of some term R (the four finiteness tests) with the
  positivity test applied to the reference's own stage N: the two chains of operations agree stretch by stretch, for
  every float model. (2) A conjunction of one-bit words is 1 only if both are, an all-reduction by "and" is 1 only
  if every entry is, and on the extended reals the comparison "greater than" is the order, the constant zero the
  number 0. (3) The host's sum over the row axis is its initial value 0 plus the three squares, and the reference's
  stage at (h, j) is the specification's blended normal Nv h j, so the sum is dot (Nv h) (Nv h) = s h.
-/
import proofs.«408861_j29884382445937_3_alg».proof.Pre_finite_inputs
import proofs.«408861_j29884382445937_3_alg».proof.Proof.Gen.Pre_finite_inputs
import proofs.«408861_j29884382445937_3_alg».proof.Proof.RefRead
import proofs.«408861_j29884382445937_3_alg».proof.Proof.RValue
import proofs.«408861_j29884382445937_3_alg».proof.Proof.Spec
import Idealize.ShloMosaic.Lib.ReduceAll
import Idealize.ShloMosaic.Lib.ValueIdx
import Idealize.ShloMosaic.PureOps.Ideal.Laws

noncomputable section

namespace Cert.Pre_finite_inputs.Hand

open Idealize.ShloMosaic Idealize.ShloMosaic.ValueIdx Cert.Pre_finite_inputs
open Cert.ReferenceIdeal.ReadP (val_main_v6 val_main_v13 val_main_v15 val_main_v16 val_main_v24 val_main_v26 val_main_v28
  val_main_v30 val_main_v32 val_main_v35 val_main_v39 val_main_v43 val_main_v53 val_main_v54 val_main_v56 val_main_v77)

/-- The rank-zero shape has one index. -/
instance : Subsingleton S_.Idx := ⟨fun a b => funext fun d => d.elim0⟩

/-- The last conjunct of the predicate as a function of the array N it tests: every row of N has a positive
    sum of squares. -/
def posTest {F : FTy → Type} [FloatOps F] (N : FVec F S2000000x3 .f32) : IVec S_ 1 :=
  Host.reduce IntOp.andi
    (cmpf .ogt
      (Host.reduceAdd (mulf N N) (constant S_ .f32 0x00000000#32) Facts.reducesTo_S2000000x3_S2000000_d1 Facts.h_S_)
      (broadcastInDim S2000000 ![] Facts.bcast_S_S2000000 (constant S_ .f32 0x00000000#32)))
    (constantI S_ 1 1#1) Facts.reducesTo_S2000000_S_d0 Facts.h_S_

/-! ## (1) The predicate's blended normal is the reference's stage -/

section Chain
variable {F : FTy → Type} [FloatOps F]
variable (x0 x1 : FVec F S2000000x3 .f32) (x2 : IVec S2000000 32) (x3 : FVec F S500000x3 .f32) (x4 : IVec S1000000x3 32)
  (x5 : FVec F S500000x3 .f32)

/-! The predicate recomputes the blended normal with the reference's own operations, in the reference's order. Each
    stretch of the predicate's chain, fed the reference's stages at its head, hands the reference's stages on: the
    triangle's index row and the gathered position rows; the five dot products and the Gram determinant; the two
    quotients, the gathered feature rows and the first weight; the blended normal. -/

theorem part1_eq (v13 : IVec S_ 1) (v16 : IVec S500000x3 1) :
    fn_part1 x0 x1 x2 x3 x4 x5 v13 v16
      = fn_part2 x0 x1 x5
          (andi v13 (Host.reduce IntOp.andi v16 (constantI S_ 1 1#1) Facts.reducesTo_S500000x3_S_d0_1 Facts.h_S_))
          (val_main_v6 (F := F) x2 x4) (val_main_v13 (F := F) x2 x3 x4) (val_main_v15 (F := F) x2 x3 x4)
          (val_main_v16 (F := F) x2 x3 x4) := rfl

theorem part2_eq (R : IVec S_ 1) :
    fn_part2 x0 x1 x5 R (val_main_v6 (F := F) x2 x4) (val_main_v13 (F := F) x2 x3 x4) (val_main_v15 (F := F) x2 x3 x4)
        (val_main_v16 (F := F) x2 x3 x4)
      = fn_part3 x1 x5 R (val_main_v6 (F := F) x2 x4) (val_main_v24 (F := F) x2 x3 x4) (val_main_v26 (F := F) x2 x3 x4)
          (val_main_v28 (F := F) x2 x3 x4) (val_main_v30 (F := F) x0 x2 x3 x4) (val_main_v32 (F := F) x0 x2 x3 x4)
          (val_main_v35 (F := F) x2 x3 x4) := rfl

theorem part3_eq (R : IVec S_ 1) :
    fn_part3 x1 x5 R (val_main_v6 (F := F) x2 x4) (val_main_v24 (F := F) x2 x3 x4) (val_main_v26 (F := F) x2 x3 x4)
        (val_main_v28 (F := F) x2 x3 x4) (val_main_v30 (F := F) x0 x2 x3 x4) (val_main_v32 (F := F) x0 x2 x3 x4)
        (val_main_v35 (F := F) x2 x3 x4)
      = fn_part4 x1 R (val_main_v39 (F := F) x0 x2 x3 x4) (val_main_v43 (F := F) x0 x2 x3 x4)
          (val_main_v53 (F := F) x2 x4 x5) (val_main_v54 (F := F) x0 x2 x3 x4) (val_main_v56 (F := F) x2 x4 x5) := rfl

theorem part4_eq (R : IVec S_ 1) :
    fn_part4 x1 R (val_main_v39 (F := F) x0 x2 x3 x4) (val_main_v43 (F := F) x0 x2 x3 x4)
        (val_main_v53 (F := F) x2 x4 x5) (val_main_v54 (F := F) x0 x2 x3 x4) (val_main_v56 (F := F) x2 x4 x5)
      = fn_part5 R (val_main_v77 (F := F) x0 x1 x2 x3 x4 x5) := rfl

theorem part5_eq (R : IVec S_ 1) (N : FVec F S2000000x3 .f32) : fn_part5 R N = andi R (posTest N) := rfl

/-- The predicate is the conjunction of the four finiteness tests (R) and the positivity test of the reference's
    blended normal. -/
theorem fn_eq :
    ∃ R : IVec S_ 1, fn x0 x1 x2 x3 x4 x5 = andi R (posTest (val_main_v77 (F := F) x0 x1 x2 x3 x4 x5)) := by
  unfold fn
  exact ⟨_, (part1_eq x0 x1 x2 x3 x4 x5 _ _).trans ((part2_eq x0 x1 x2 x3 x4 x5 _).trans
    ((part3_eq x0 x1 x2 x3 x4 x5 _).trans ((part4_eq x0 x1 x2 x3 x4 x5 _).trans (part5_eq _ _))))⟩

end Chain

/-! ## (2), (3) A passed test, read on the extended reals -/

/-- The row sum the test compares with zero, on the extended reals: zero plus the three squares. -/
theorem rowSum_apply (N : FVec Ideal S2000000x3 .f32) (h : Fin 2000000) :
    Host.reduceAdd (mulf N N) (constant S_ .f32 0x00000000#32) Facts.reducesTo_S2000000x3_S2000000_d1 Facts.h_S_ (ix1 h)
      = ∑ k : Fin 3, N (ix2 h k) * N (ix2 h k) := by
  generalize hy : mulf N N = y0
  simp only [Host.reduceAdd, Ideal.hostReduceAdd_def]
  rw [Ideal.hostReduceAdd_single Facts.reducesTo_S2000000x3_S2000000_d1 (by decide)]
  have h0 : (constant (F := Ideal) S_ .f32 0x00000000#32) (Shape.Idx.first Facts.h_S_) = 0 := Ideal.ofBits_zero_f32
  rw [h0, zero_add]
  refine Finset.sum_congr rfl fun k _ => ?_
  subst hy
  exact congrArg (fun i => N i * N i)
    (funext fun a => Fin.ext (by match a with | ⟨0, _⟩ => rfl | ⟨1, _⟩ => rfl))

/-- A passed test says every row's sum of squares is positive: the conjunction gives the test, the test gives each
    row's comparison, and the comparison of extended reals is their order. -/
theorem pos_of_posTest (N : FVec Ideal S2000000x3 .f32) (R : IVec S_ 1)
    (hp : andi R (posTest N) = fun _ => 1#1) (h : Fin 2000000) :
    0 < ∑ k : Fin 3, N (ix2 h k) * N (ix2 h k) := by
  have h1 : IntOp.andi (R ix0) (posTest N ix0) = 1#1 := congrFun hp ix0
  have h2 : posTest N ix0 = 1#1 := (IntOp.andi_eq_one.1 h1).2
  unfold posTest at h2
  have h3 := Host.reduce_andi_all _ _ _ _ _ h2 (ix1 h)
  rw [cmpf_apply, Ideal.cmpf_def, rowSum_apply] at h3
  have h4 : broadcastInDim S2000000 ![] Facts.bcast_S_S2000000 (constant (F := Ideal) S_ .f32 0x00000000#32) (ix1 h) = 0 :=
    Ideal.ofBits_zero_f32
  rw [h4] at h3
  have h5 : BitVec.ofBool (decide ((0 : EReal) < ∑ k : Fin 3, N (ix2 h k) * N (ix2 h k))) = 1#1 := h3
  by_contra hn
  rw [decide_eq_false hn] at h5
  exact absurd h5 (by decide)

/-! ## The precondition gives a positive squared length at every hit -/

/-- Where the predicate holds, the squared length of the blended normal is positive at every hit. -/
theorem pos_of_pre (x0 x1 : FVec Ideal S2000000x3 .f32) (x2 : IVec S2000000 32) (x3 : FVec Ideal S500000x3 .f32)
    (x4 : IVec S1000000x3 32) (x5 : FVec Ideal S500000x3 .f32)
    (hpre : Cert.Pre_finite_inputs.fn (F := Ideal) x0 x1 x2 x3 x4 x5 = fun _ => 1#1) (h : Fin 2000000) :
    0 < Cert.Spec.s x0 x1 x2 x3 x5 x4 h := by
  obtain ⟨R, hR⟩ := fn_eq x0 x1 x2 x3 x4 x5
  rw [hR] at hpre
  have hs := pos_of_posTest (val_main_v77 (F := Ideal) x0 x1 x2 x3 x4 x5) R hpre h
  have hb : ∀ k : Fin 3, val_main_v77 (F := Ideal) x0 x1 x2 x3 x4 x5 (ix2 h k) = Cert.Spec.Nv x0 x1 x2 x3 x5 x4 h k :=
    fun k => Cert.ReferenceIdeal.Hand.ref_blend ..
  rw [Finset.sum_congr rfl fun k _ => by rw [hb k]] at hs
  rw [Cert.Spec.s_eq]
  exact hs

end Cert.Pre_finite_inputs.Hand

end
-- ==== Proof.lean ====
/-
  The claim: the ray-hit normal-map kernel and its jnp reference, at the extended reals.

  Per hit, both programs look up the hit's triangle and its three vertices (a negative index counted from the end,
  every index clamped into its table), take the barycentric weights of the hit point from the five dot products of
  the triangle's edges and the hit's offset, interpolate the vertices' features, blend the result into the hit's
  normal, N = n + (2 f - 1) / 4, and scale N to unit length. The kernel gathers the vertex rows once into an
  18-row table laid out with the hit axis last, pads that axis to a whole number of blocks, computes block by block
  and drops the padding; the reference computes on [hits, 3] arrays. Index by index the two are one function
  (Spec.lean: Nv), up to the last step: the kernel multiplies N by rsqrt (N . N), the reference divides N by
  sqrt (N . N). On the extended reals these agree exactly where 0 < N . N (Spec.scale_eq); at N = 0 the product is
  0 and the quotient 0 / 0 is not, which is why the statement's precondition asks, beside finite inputs, that every
  hit's blended normal have positive squared length: there the reference itself is 0 / 0.

  The three frames: the two kernel programs' runs are KFrame.lean / KFrameBits.lean (the host prefix, the 62-point
  region whose body loads three blocks and stores one, the host tail); the reference's is its run with the result
  dropped. The kernel's result array is read off its frame run in KValue.lean (KPayload.lean: the body at an index;
  KHost.lean: the staged arrays at an index), the reference's stages are the specification by RValue.lean, and
  PreDecode.lean reads the positivity of N . N out of the precondition.
-/
import proofs.«408861_j29884382445937_3_alg».proof.Defs
import proofs.«408861_j29884382445937_3_alg».proof.Proof.Gen.Kernel
import proofs.«408861_j29884382445937_3_alg».proof.Proof.Gen.KernelIdeal
import proofs.«408861_j29884382445937_3_alg».proof.Proof.Gen.ReferenceIdeal
import proofs.«408861_j29884382445937_3_alg».proof.Proof.Gen.Pre_finite_inputs
import proofs.«408861_j29884382445937_3_alg».proof.Proof.KFrame
import proofs.«408861_j29884382445937_3_alg».proof.Proof.KFrameBits
import proofs.«408861_j29884382445937_3_alg».proof.Proof.KValue
import proofs.«408861_j29884382445937_3_alg».proof.Proof.RefRun
import proofs.«408861_j29884382445937_3_alg».proof.Proof.RefReadEq
import proofs.«408861_j29884382445937_3_alg».proof.Proof.RValue
import proofs.«408861_j29884382445937_3_alg».proof.Proof.PreDecode
import proofs.«408861_j29884382445937_3_alg».proof.Proof.Spec
import Idealize.ShloMosaic.Lib.ValueIdx

noncomputable section

namespace Cert.Proof

open Idealize.ShloMosaic Idealize.ShloMosaic.TcCoe Idealize.SL.Sem Idealize.ShloMosaic.ValueIdx

/-- The word-level kernel program runs to its end and leaves its arguments as they were. -/
theorem frame_k : @Cert.frame_Kernel Cert.Kernel.Gen.facts Cert.Pre_finite_inputs.Gen.facts :=
  fun m ρ _ => Cert.Kernel.Hand.frame m ρ

/-- So does the idealized kernel program. -/
theorem frame_ki : @Cert.frame_KernelIdeal Cert.KernelIdeal.Gen.facts Cert.Pre_finite_inputs.Gen.facts :=
  fun m ρ _ => Cert.KernelIdeal.Hand.frame m ρ

/-- The reference is host operations only: its frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := Ideal) m ρ)

/-- Under the precondition the reference's last stage, the blended normal divided by its norm, is the kernel's
    product with the reciprocal square root, entry by entry: the precondition's last conjunct makes every hit's
    squared length positive, and there the two closing forms agree. -/
theorem result_eq (m : (ℓ : Loc Cert.KernelIdeal.nD Cert.KernelIdeal.τ Cert.KernelIdeal.sig) → Buf (Elt Ideal) ℓ)
    (hpre : @Cert.Pre_KernelIdeal Cert.Pre_finite_inputs.Gen.facts m) (c : Dev Cert.KernelIdeal.nD) :
    Cert.ReferenceIdeal.ReadP.val_main_v80 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = (fun i => Cert.Spec.outK
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg4))
        ⟨(i 0).val, (i 0).isLt⟩ ⟨(i 1).val, (i 1).isLt⟩) := by
  funext i
  obtain ⟨h, j, rfl⟩ : ∃ (h : Fin 2000000) (j : Fin 3), i = ix2 h j := ⟨i 0, i 1, eq_ix2 i⟩
  rw [Cert.ReferenceIdeal.Hand.ref_out]
  exact (Cert.Spec.out_eq _ _ _ _ _ _ h (Cert.Pre_finite_inputs.Hand.pos_of_pre _ _ _ _ _ _ (hpre c) h) j).symm

/-- From memories that agree on the arguments, under the precondition, both idealized programs run to their ends
    with one and the same result array, the unit blended normals, and unchanged arguments. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨_, Cert.KernelIdeal.Hand.Value.value_run m ρ, ?_⟩
  refine (θ_run Cert.ReferenceIdeal.defs _ _).mono (fun r h c => ⟨(h c).1.trans ?_, (h c).2⟩)
    (Cert.ReferenceIdeal.ValueP.run (F := Ideal) m' ρ')
  rw [Cert.ReferenceIdeal.ReadP.val_main_v80_eq, (hagree c).1, (hagree c).2.1, (hagree c).2.2.1, (hagree c).2.2.2.1,
    (hagree c).2.2.2.2.1, (hagree c).2.2.2.2.2]
  exact result_eq m hpre c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
